-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x4096 : Shape := ⟨2, ![16, 4096]⟩
abbrev S16x256x3 : Shape := ⟨3, ![16, 256, 3]⟩
abbrev S16x256 : Shape := ⟨2, ![16, 256]⟩
abbrev S16x256x256 : Shape := ⟨3, ![16, 256, 256]⟩
abbrev S16x256x1 : Shape := ⟨3, ![16, 256, 1]⟩
abbrev S16x1x256 : Shape := ⟨3, ![16, 1, 256]⟩
abbrev S_ : Shape := ⟨0, ![]⟩
abbrev S16 : Shape := ⟨1, ![16]⟩

abbrev nBuf : Space → Nat
  | .hbm => 27
  | .vmem => 12
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096, .f32⟩
  | .hbm, ⟨3, _⟩ => ⟨S16x4096, .f32⟩
  | .hbm, ⟨4, _⟩ => ⟨S_, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S16x256x3, .f32⟩
  | .local _ .vmem, ⟨1, _⟩ => ⟨S16x256x3, .f32⟩
  | .local _ .vmem, ⟨2, _⟩ => ⟨S16x256x3, .f32⟩
  | .local _ .vmem, ⟨3, _⟩ => ⟨S16x256x3, .f32⟩
  | .local _ .vmem, ⟨4, _⟩ => ⟨S16x256, .f32⟩
  | .local _ .vmem, ⟨5, _⟩ => ⟨S16x256, .f32⟩
  | .local _ .vmem, ⟨6, _⟩ => ⟨S16x256x3, .f32⟩
  | .local _ .vmem, ⟨7, _⟩ => ⟨S16x256x3, .f32⟩
  | .local _ .vmem, ⟨8, _⟩ => ⟨S16x256x3, .f32⟩
  | .local _ .vmem, ⟨9, _⟩ => ⟨S16x256x3, .f32⟩
  | .local _ .vmem, ⟨10, _⟩ => ⟨S16x256, .f32⟩
  | .local _ .vmem, ⟨11, _⟩ => ⟨S16x256, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_cst_7 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_9 : BitVec 32 := 0#32
  let v20 : BitVec 1 := Scalar.cmpi .ne v19 c0_i32_9
  v20

def k0_cond2 (i : grid0.Coords) : BitVec 1 :=
  let arg1 : BitVec 32 := BitVec.ofNat 32 (i 1).val
  let c0_i32_10 : BitVec 32 := 0#32
  let v21 : BitVec 1 := Scalar.cmpi .sgt arg1 c0_i32_10
  let v22 : BitVec 32 := Scalar.extui v21
  let c0_i32_11 : BitVec 32 := 0#32
  let v23 : BitVec 1 := Scalar.cmpi .ne v22 c0_i32_11
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond1 (i : grid1.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_9 : BitVec 32 := 0#32
  let v20 : BitVec 1 := Scalar.cmpi .ne v19 c0_i32_9
  v20

def k1_cond2 (i : grid1.Coords) : BitVec 1 :=
  let arg1 : BitVec 32 := BitVec.ofNat 32 (i 1).val
  let c0_i32_10 : BitVec 32 := 0#32
  let v21 : BitVec 1 := Scalar.cmpi .sgt arg1 c0_i32_10
  let v22 : BitVec 32 := Scalar.extui v21
  let c0_i32_11 : BitVec 32 := 0#32
  let v23 : BitVec 1 := Scalar.cmpi .ne v22 c0_i32_11
  v23

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S16x256x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x256x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S16x256x3_S16x256x3_0_0_0 : ∀ a, (![0, 0, 0] : Fin 3 → Nat) a + S16x256x3.size a ≤ S16x256x3.size a
  h_S16x256x3 : 0 < S16x256x3.numel
  reduces_S16x256x3_S16x256 : S16x256x3.Reduces [2] S16x256
  bitsLt_bf16_f32 : FTy.bits .bf16 < FTy.bits .f32
  shapeCasts_S16x256_S16x256x1 : S16x256.ShapeCasts S16x256x1
  shapeCasts_S16x256_S16x1x256 : S16x256.ShapeCasts S16x1x256
  broadcasts_S16x256x1_S16x256x256 : S16x256x1.Broadcasts S16x256x256
  broadcasts_S16x1x256_S16x256x256 : S16x1x256.Broadcasts S16x256x256
  reduces_S16x256x256_S16x256 : S16x256x256.Reduces [1] S16x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  reduces_S16x256x256_S16x256_2 : S16x256x256.Reduces [2] S16x256
  reducesTo_S16x4096_S16_d1 : S16x4096.ReducesTo [1] S16
  h_S_ : 0 < S_.numel
  bcast_S_S16 : S_.BroadcastsInDim S16 (![] : Fin 0 → Fin S16.rank)
  reducesTo_S16_S_d0 : S16.ReducesTo [0] S_
  dot_S16x256x3_S16x256x3_S16x256x256_2_2_1_1_0_0_wf : DotDims.WF S16x256x3 S16x256x3 S16x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x3.size a ≤ S16x4096x3.size a
  hwx0_0 : ∀ i : grid0.Coords, EltTy.bits .f32 = 32 ∨ (Rect.block (s := S16x4096x3) S16x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x3.size a ≤ S16x4096x3.size a
  hwx0_1 : ∀ i : grid0.Coords, EltTy.bits .f32 = 32 ∨ (Rect.block (s := S16x4096x3) S16x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x4096.size a
  hwx0_2 : ∀ i : grid0.Coords, EltTy.bits .f32 = 32 ∨ (Rect.block (s := S16x4096) S16x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x3.size a ≤ S16x4096x3.size a
  hwx1_0 : ∀ i : grid1.Coords, EltTy.bits .f32 = 32 ∨ (Rect.block (s := S16x4096x3) S16x256x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x256x3.size a ≤ S16x4096x3.size a
  hwx1_1 : ∀ i : grid1.Coords, EltTy.bits .f32 = 32 ∨ (Rect.block (s := S16x4096x3) S16x256x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S16x4096.size a
  hwx1_2 : ∀ i : grid1.Coords, EltTy.bits .f32 = 32 ∨ (Rect.block (s := S16x4096) S16x256.size (cc1_transform_2 i) (hinb1_2 i)).WholeWords (EltTy.packing .f32)

variable [Facts₀]

def dot_S16x256x3_S16x256x3_S16x256x256_2_2_1_1_0_0 : DotDims S16x256x3 S16x256x3 S16x256x256 where
  lhsContracting := [2]
  rhsContracting := [2]
  lhsNonContracting := [1]
  rhsNonContracting := [1]
  lhsBatch := [0]
  rhsBatch := [0]
  wf := dot_S16x256x3_S16x256x3_S16x256x256_2_2_1_1_0_0_wf

abbrev win0_0 : Pipeline.Window sig grid0 :=
  Pipeline.Window.ofSpec (Memref.whole main_arg0) S16x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_arg0) S16x256x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S16x256x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S16x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16x4096, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩
abbrev main_cst_12 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  reducesTo_S16x4096x4096_S16x4096_d2 : S16x4096x4096.ReducesTo [2] S16x4096
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.K.Shared.lean ====
/- What the frame proof of the two pallas_calls shares: the tiles of the two point clouds as each region finds them,
   the closed forms of the kernels' two branches over the 16 × 16 grids, and the staging memrefs by name. -/
import proofs.«111773_j1408749273445_1_alg».proof.Proof.Gen.Kernel.Launch
import proofs.«111773_j1408749273445_1_alg».proof.Proof.Gen.Kernel.Skeleton
import proofs.«111773_j1408749273445_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0: what its two runs and its proof data share, at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point cloud's staging buffer holds its tile at every point, whether or not the point fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second point cloud's staging buffer likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! # Region 1: what its two runs and its proof data share, at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point cloud's staging buffer holds its tile at every point, whether or not the point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second point cloud's staging buffer likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## Region 0: the two branches over the grid

The grid is 16 × 16, the inner coordinate the position along the reduced axis. The first branch (store the
tile's minimum) is taken exactly at inner position 0, the second (combine with the running minimum) exactly at
the other fifteen: the two conditions, decided over the 256 points. -/

theorem hcond0_1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem hcond0_2 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- At every grid point one of the two branches stores into the output's staging buffer: it is never idle. -/
theorem live0_2 : ∀ t : Fin cfg0.N, idle0 2 (grid0.coords t) = false :=
  (by decide +kernel : ∀ t : Fin grid0.N, idle0 2 (grid0.coords t) = false)

/-- One staging buffer of the output window, through which its contents are stated. -/
abbrev VO0_2 : View sig .tc .vmem S16x256 .f32 := (Memref.whole cc0_stg2_0 : Memref sig .tc .vmem S16x256 .f32).view
/-- Each window's current staging memref at point `t`, spelled as the pipeline passes it, and its wholeness. -/
abbrev ms0_0 (t : Fin cfg0.N) : Memref sig .tc .vmem S16x256x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x256 .f32 := win0_2.stage (cfg0.slots t 2)
abbrev hs0_2 (t : Fin cfg0.N) : (ms0_2 t).IsWhole := hstage0_2 ((cfg0.slots t 2).cast nbuf0_2)

/-! ## Region 1: the two branches over the grid

The grid is 16 × 16, the inner coordinate the position along the reduced axis. The first branch (store the
tile's minimum) is taken exactly at inner position 0, the second (combine with the running minimum) exactly at
the other fifteen: the two conditions, decided over the 256 points. -/

theorem hcond1_1 : ∀ t : Fin cfg1.N, k1_cond1 (grid1.coords t) = 1#1 ↔ t.val % 16 = 0 :=
  (by decide +kernel : ∀ t : Fin grid1.N, k1_cond1 (grid1.coords t) = 1#1 ↔ t.val % 16 = 0)
theorem hcond1_2 : ∀ t : Fin cfg1.N, k1_cond2 (grid1.coords t) = 1#1 ↔ ¬ t.val % 16 = 0 :=
  (by decide +kernel : ∀ t : Fin grid1.N, k1_cond2 (grid1.coords t) = 1#1 ↔ ¬ t.val % 16 = 0)

/-- At every grid point one of the two branches stores into the output's staging buffer: it is never idle. -/
theorem live1_2 : ∀ t : Fin cfg1.N, idle1 2 (grid1.coords t) = false :=
  (by decide +kernel : ∀ t : Fin grid1.N, idle1 2 (grid1.coords t) = false)

/-- One staging buffer of the output window, through which its contents are stated. -/
abbrev VO1_2 : View sig .tc .vmem S16x256 .f32 := (Memref.whole cc1_stg2_0 : Memref sig .tc .vmem S16x256 .f32).view
/-- Each window's current staging memref at point `t`, spelled as the pipeline passes it, and its wholeness. -/
abbrev ms1_0 (t : Fin cfg1.N) : Memref sig .tc .vmem S16x256x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x256x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x256 .f32 := win1_2.stage (cfg1.slots t 2)
abbrev hs1_2 (t : Fin cfg1.N) : (ms1_2 t).IsWhole := hstage1_2 ((cfg1.slots t 2).cast nbuf1_2)

end Cert.Kernel.Hand

end
-- ==== Proof.K.RunA0.lean ====
/- The kernel body of region 0 run once, at the first step along the reduced axis of region 0 (the tile's minimum is stored; the second branch is skipped):
   on whole staging memrefs holding the two tiles, it ends with the tiles as they were and the output buffer written by
   the pieces the run finds. -/
import proofs.«111773_j1408749273445_1_alg».proof.Proof.K.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : k0_cond1 i = 1#1) (hc2 : ¬ k0_cond2 i = 1#1)
    (x0 : Vec F S16x256x3 .f32) (x1 : Vec F S16x256x3 .f32) :
    { L2 : List (View.Piece (Elt F) S16x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel_min_over_n1 i arg2 harg2 arg3 harg3 arg4 harg4) K } := by
  refine ⟨?_, fun E K => ?run⟩
  case run =>
    simp only [cc0__kernel_min_over_n1_eq_skeleton]; unfold cc0__kernel_min_over_n1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.RunB0.lean ====
/- The kernel body of region 0 run once, at a later step along the reduced axis of region 0 (the first branch is skipped; the running minimum `xo` is read back and combined with the tile's):
   on whole staging memrefs holding the two tiles, it ends with the tiles as they were and the output buffer written by
   the pieces the run finds. -/
import proofs.«111773_j1408749273445_1_alg».proof.Proof.K.RunA0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : ¬ k0_cond1 i = 1#1) (hc2 : k0_cond2 i = 1#1)
    (x0 : Vec F S16x256x3 .f32) (x1 : Vec F S16x256x3 .f32) (xo : Vec F S16x256 .f32) :
    { L2 : List (View.Piece (Elt F) S16x256 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel_min_over_n1 i arg2 harg2 arg3 harg3 arg4 harg4) K } := by
  refine ⟨?_, fun E K => ?run⟩
  case run =>
    simp only [cc0__kernel_min_over_n1_eq_skeleton]; unfold cc0__kernel_min_over_n1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.Region0.lean ====
/- Region 0 of the program, at the contents `V` it is entered with: what each of the two runs of the body leaves in the
   output's staging buffer, what that buffer holds after every grid point (the running minimum along the inner grid axis,
   restarted wherever the inner coordinate is 0), the pipeline's proof data over it, and the body obligation. -/
import proofs.«111773_j1408749273445_1_alg».proof.Proof.K.RunB0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- No coordinate of the grid leaves the output's staging buffer unwritten: one of the two branches is always taken. -/
theorem live0_2_all : ∀ i : cfg0.grid.Coords, cfg0.idle 2 i = false := fun i => by
  have h : ∀ k : Fin 16, (!(Scalar.cmpi .ne (Scalar.extui (Scalar.cmpi .eq (BitVec.ofNat 32 k.val) 0#32)) 0#32 == 1#1)
      && !(Scalar.cmpi .ne (Scalar.extui (Scalar.cmpi .sgt (BitVec.ofNat 32 k.val) 0#32)) 0#32 == 1#1)) = false := by decide
  exact h (i 1)

/-- The first run's one store covers the output's staging buffer. -/
theorem cover0_A_2 (c : Dev nD) (i : grid0.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : k0_cond1 i = 1#1) (hc2 : ¬ k0_cond2 i = 1#1)
    (x0 : Vec F S16x256x3 .f32) (x1 : Vec F S16x256x3 .f32) (y : S16x256.Idx) :
    ∃ pc ∈ (kernelRun0_A c i arg2 harg2 arg3 harg3 arg4 harg4 hc1 hc2 x0 x1).1, y ∈ pc.1.set :=
  View.cover_of_tiledL (kernelRun0_A c i arg2 harg2 arg3 harg3 arg4 harg4 hc1 hc2 x0 x1).1 S16x256.size (by sl_kernel_rfl) y

/-- What the first run leaves in the output's staging buffer. -/
def out0_A_2 (c : Dev nD) (i : grid0.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : k0_cond1 i = 1#1) (hc2 : ¬ k0_cond2 i = 1#1)
    (x0 : Vec F S16x256x3 .f32) (x1 : Vec F S16x256x3 .f32) : Vec F S16x256 .f32 :=
  VO0_2.read (Elt F) (VO0_2.writes (Elt F) VO0_2.junk (kernelRun0_A c i arg2 harg2 arg3 harg3 arg4 harg4 hc1 hc2 x0 x1).1)

/-- The later runs' one store covers it too. -/
theorem cover0_B_2 (c : Dev nD) (i : grid0.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : ¬ k0_cond1 i = 1#1) (hc2 : k0_cond2 i = 1#1)
    (x0 : Vec F S16x256x3 .f32) (x1 : Vec F S16x256x3 .f32) (xo : Vec F S16x256 .f32) (y : S16x256.Idx) :
    ∃ pc ∈ (kernelRun0_B c i arg2 harg2 arg3 harg3 arg4 harg4 hc1 hc2 x0 x1 xo).1, y ∈ pc.1.set :=
  View.cover_of_tiledL (kernelRun0_B c i arg2 harg2 arg3 harg3 arg4 harg4 hc1 hc2 x0 x1 xo).1 S16x256.size (by sl_kernel_rfl) y

/-- What a later run leaves in the output's staging buffer, over the running contents `xo`. -/
def out0_B_2 (c : Dev nD) (i : grid0.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : ¬ k0_cond1 i = 1#1) (hc2 : k0_cond2 i = 1#1)
    (x0 : Vec F S16x256x3 .f32) (x1 : Vec F S16x256x3 .f32) (xo : Vec F S16x256 .f32) : Vec F S16x256 .f32 :=
  VO0_2.read (Elt F) (VO0_2.writes (Elt F) VO0_2.junk (kernelRun0_B c i arg2 harg2 arg3 harg3 arg4 harg4 hc1 hc2 x0 x1 xo).1)

/-! ## What the output's staging buffer holds after each point -/

/-- The running contents: at a point whose inner coordinate is 0 what the first run leaves, at any other what a later
    run leaves over the contents of the point before. -/
def outsAt0 (c : Dev nD) : (n : ℕ) → n < cfg0.N → Vec F S16x256 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_1 ⟨0, hn⟩).mpr (Nat.zero_mod _)) (fun h => ((hcond0_2 ⟨0, hn⟩).mp h) (Nat.zero_mod _)) (iblk0 V c 0 ⟨0, hn⟩) (iblk0 V c 1 ⟨0, hn⟩)
  | n + 1, hn =>
    if h0 : (n + 1) % 16 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_1 ⟨n + 1, hn⟩).mpr h0) (fun h => ((hcond0_2 ⟨n + 1, hn⟩).mp h) h0) (iblk0 V c 0 ⟨n + 1, hn⟩) (iblk0 V c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_1 ⟨n + 1, hn⟩).mp h)) ((hcond0_2 ⟨n + 1, hn⟩).mpr h0) (iblk0 V c 0 ⟨n + 1, hn⟩) (iblk0 V c 1 ⟨n + 1, hn⟩) (outsAt0 c n (Nat.lt_of_succ_lt hn))

theorem outsAt0_A (c : Dev nD) (t : Fin cfg0.N) (h0 : t.val % 16 = 0) :
    outsAt0 V c t.val t.isLt = out0_A_2 c (grid0.coords t) (ms0_0 t) (hs0_0 t) (ms0_1 t) (hs0_1 t) (ms0_2 t) (hs0_2 t) ((hcond0_1 t).mpr h0) (fun h => ((hcond0_2 t).mp h) h0) (iblk0 V c 0 t) (iblk0 V c 1 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = out0_B_2 c (grid0.coords t) (ms0_0 t) (hs0_0 t) (ms0_1 t) (hs0_1 t) (ms0_2 t) (hs0_2 t) (fun h => h0 ((hcond0_1 t).mp h)) ((hcond0_2 t).mpr h0) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each point cloud's buffer at its tile and the
    output's at the running contents; nothing owed, full shares, the invariant the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- Away from inner coordinate 0 the output's staging buffer still holds what the point before left: the block is
    written back only after inner coordinate 15, and the window is never idle. -/
theorem before0_2_B (c : Dev nD) (t : Fin cfg0.N) (h0 : ¬t.val % 16 = 0) (d) :
    (dat0 V c).before 2 t d = outsAt0 V c (t.val - 1) (Nat.lt_of_le_of_lt (Nat.sub_le _ _) t.isLt) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (live0_2_all) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the tiles are in their buffers; the inner coordinate says which run applies, and away from
    inner coordinate 0 the output's buffer holds the contents of the point before. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 16 = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_1 t).mpr h0) (fun h => ((hcond0_2 t).mp h) h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_1 t).mp h)) ((hcond0_2 t).mpr h0) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  simp only [live0_2 t]
  exact sound_body0 V c t

end Region

end Cert.Kernel.Hand

end
-- ==== Proof.K.RunA1.lean ====
/- The kernel body of region 1 run once, at the first step along the reduced axis of region 1 (the tile's minimum is stored; the second branch is skipped):
   on whole staging memrefs holding the two tiles, it ends with the tiles as they were and the output buffer written by
   the pieces the run finds. -/
import proofs.«111773_j1408749273445_1_alg».proof.Proof.K.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : k1_cond1 i = 1#1) (hc2 : ¬ k1_cond2 i = 1#1)
    (x0 : Vec F S16x256x3 .f32) (x1 : Vec F S16x256x3 .f32) :
    { L2 : List (View.Piece (Elt F) S16x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__kernel_min_over_n2 i arg2 harg2 arg3 harg3 arg4 harg4) K } := by
  refine ⟨?_, fun E K => ?run⟩
  case run =>
    simp only [cc1__kernel_min_over_n2_eq_skeleton]; unfold cc1__kernel_min_over_n2_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.RunB1.lean ====
/- The kernel body of region 1 run once, at a later step along the reduced axis of region 1 (the first branch is skipped; the running minimum `xo` is read back and combined with the tile's):
   on whole staging memrefs holding the two tiles, it ends with the tiles as they were and the output buffer written by
   the pieces the run finds. -/
import proofs.«111773_j1408749273445_1_alg».proof.Proof.K.RunA1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : ¬ k1_cond1 i = 1#1) (hc2 : k1_cond2 i = 1#1)
    (x0 : Vec F S16x256x3 .f32) (x1 : Vec F S16x256x3 .f32) (xo : Vec F S16x256 .f32) :
    { L2 : List (View.Piece (Elt F) S16x256 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__kernel_min_over_n2 i arg2 harg2 arg3 harg3 arg4 harg4) K } := by
  refine ⟨?_, fun E K => ?run⟩
  case run =>
    simp only [cc1__kernel_min_over_n2_eq_skeleton]; unfold cc1__kernel_min_over_n2_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.Region1.lean ====
/- Region 1 of the program, at the contents `V` it is entered with: what each of the two runs of the body leaves in the
   output's staging buffer, what that buffer holds after every grid point (the running minimum along the inner grid axis,
   restarted wherever the inner coordinate is 0), the pipeline's proof data over it, and the body obligation. -/
import proofs.«111773_j1408749273445_1_alg».proof.Proof.K.RunB1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- No coordinate of the grid leaves the output's staging buffer unwritten: one of the two branches is always taken. -/
theorem live1_2_all : ∀ i : cfg1.grid.Coords, cfg1.idle 2 i = false := fun i => by
  have h : ∀ k : Fin 16, (!(Scalar.cmpi .ne (Scalar.extui (Scalar.cmpi .eq (BitVec.ofNat 32 k.val) 0#32)) 0#32 == 1#1)
      && !(Scalar.cmpi .ne (Scalar.extui (Scalar.cmpi .sgt (BitVec.ofNat 32 k.val) 0#32)) 0#32 == 1#1)) = false := by decide
  exact h (i 1)

/-- The first run's one store covers the output's staging buffer. -/
theorem cover1_A_2 (c : Dev nD) (i : grid1.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : k1_cond1 i = 1#1) (hc2 : ¬ k1_cond2 i = 1#1)
    (x0 : Vec F S16x256x3 .f32) (x1 : Vec F S16x256x3 .f32) (y : S16x256.Idx) :
    ∃ pc ∈ (kernelRun1_A c i arg2 harg2 arg3 harg3 arg4 harg4 hc1 hc2 x0 x1).1, y ∈ pc.1.set :=
  View.cover_of_tiledL (kernelRun1_A c i arg2 harg2 arg3 harg3 arg4 harg4 hc1 hc2 x0 x1).1 S16x256.size (by sl_kernel_rfl) y

/-- What the first run leaves in the output's staging buffer. -/
def out1_A_2 (c : Dev nD) (i : grid1.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : k1_cond1 i = 1#1) (hc2 : ¬ k1_cond2 i = 1#1)
    (x0 : Vec F S16x256x3 .f32) (x1 : Vec F S16x256x3 .f32) : Vec F S16x256 .f32 :=
  VO1_2.read (Elt F) (VO1_2.writes (Elt F) VO1_2.junk (kernelRun1_A c i arg2 harg2 arg3 harg3 arg4 harg4 hc1 hc2 x0 x1).1)

/-- The later runs' one store covers it too. -/
theorem cover1_B_2 (c : Dev nD) (i : grid1.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : ¬ k1_cond1 i = 1#1) (hc2 : k1_cond2 i = 1#1)
    (x0 : Vec F S16x256x3 .f32) (x1 : Vec F S16x256x3 .f32) (xo : Vec F S16x256 .f32) (y : S16x256.Idx) :
    ∃ pc ∈ (kernelRun1_B c i arg2 harg2 arg3 harg3 arg4 harg4 hc1 hc2 x0 x1 xo).1, y ∈ pc.1.set :=
  View.cover_of_tiledL (kernelRun1_B c i arg2 harg2 arg3 harg3 arg4 harg4 hc1 hc2 x0 x1 xo).1 S16x256.size (by sl_kernel_rfl) y

/-- What a later run leaves in the output's staging buffer, over the running contents `xo`. -/
def out1_B_2 (c : Dev nD) (i : grid1.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : ¬ k1_cond1 i = 1#1) (hc2 : k1_cond2 i = 1#1)
    (x0 : Vec F S16x256x3 .f32) (x1 : Vec F S16x256x3 .f32) (xo : Vec F S16x256 .f32) : Vec F S16x256 .f32 :=
  VO1_2.read (Elt F) (VO1_2.writes (Elt F) VO1_2.junk (kernelRun1_B c i arg2 harg2 arg3 harg3 arg4 harg4 hc1 hc2 x0 x1 xo).1)

/-! ## What the output's staging buffer holds after each point -/

/-- The running contents: at a point whose inner coordinate is 0 what the first run leaves, at any other what a later
    run leaves over the contents of the point before. -/
def outsAt1 (c : Dev nD) : (n : ℕ) → n < cfg1.N → Vec F S16x256 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_1 ⟨0, hn⟩).mpr (Nat.zero_mod _)) (fun h => ((hcond1_2 ⟨0, hn⟩).mp h) (Nat.zero_mod _)) (iblk1 V c 0 ⟨0, hn⟩) (iblk1 V c 1 ⟨0, hn⟩)
  | n + 1, hn =>
    if h0 : (n + 1) % 16 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_1 ⟨n + 1, hn⟩).mpr h0) (fun h => ((hcond1_2 ⟨n + 1, hn⟩).mp h) h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_1 ⟨n + 1, hn⟩).mp h)) ((hcond1_2 ⟨n + 1, hn⟩).mpr h0) (iblk1 V c 0 ⟨n + 1, hn⟩) (iblk1 V c 1 ⟨n + 1, hn⟩) (outsAt1 c n (Nat.lt_of_succ_lt hn))

theorem outsAt1_A (c : Dev nD) (t : Fin cfg1.N) (h0 : t.val % 16 = 0) :
    outsAt1 V c t.val t.isLt = out1_A_2 c (grid1.coords t) (ms1_0 t) (hs1_0 t) (ms1_1 t) (hs1_1 t) (ms1_2 t) (hs1_2 t) ((hcond1_1 t).mpr h0) (fun h => ((hcond1_2 t).mp h) h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = out1_B_2 c (grid1.coords t) (ms1_0 t) (hs1_0 t) (ms1_1 t) (hs1_1 t) (ms1_2 t) (hs1_2 t) (fun h => h0 ((hcond1_1 t).mp h)) ((hcond1_2 t).mpr h0) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each point cloud's buffer at its tile and the
    output's at the running contents; nothing owed, full shares, the invariant the scoped rest and the generator register. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- Away from inner coordinate 0 the output's staging buffer still holds what the point before left: the block is
    written back only after inner coordinate 15, and the window is never idle. -/
theorem before1_2_B (c : Dev nD) (t : Fin cfg1.N) (h0 : ¬t.val % 16 = 0) (d) :
    (dat1 V c).before 2 t d = outsAt1 V c (t.val - 1) (Nat.lt_of_le_of_lt (Nat.sub_le _ _) t.isLt) := by
  have hN : t.val < 256 := lt_of_lt_of_eq t.isLt (show cfg1.N = 256 from N_1)
  rw [Dat.before_out_kept _ 2 rfl t (by omega) (Bool.eq_false_iff.mpr fun h => by have := (flush1_2 _).mp h; dsimp only at this; omega)
    (live1_2_all) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the tiles are in their buffers; the inner coordinate says which run applies, and away from
    inner coordinate 0 the output's buffer holds the contents of the point before. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 16 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_1 t).mpr h0) (fun h => ((hcond1_2 t).mp h) h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_1 t).mp h)) ((hcond1_2 t).mpr h0) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  simp only [live1_2 t]
  exact sound_body1 V c t

end Region

end Cert.Kernel.Hand

end
-- ==== Proof.K.Run.lean ====
/- The whole program run: region 0, region 1, then the host operations. The unscoped buffers' contents at each
   boundary are a fold from the launch memory (a region replaces its arrays by what its write-backs leave, the host
   stretch applies its operations); every weakly fair execution terminates with every unscoped buffer at the fold's
   last stage, so the result is the host operations' term of the two regions' outputs and the arguments are as launched. -/
import proofs.«111773_j1408749273445_1_alg».proof.Proof.K.Region0
import proofs.«111773_j1408749273445_1_alg».proof.Proof.K.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1 likewise. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host operations. -/
abbrev W3 : Dev nD → Valuation τ sig (Elt F) := fun c => StableHlo.after hostOps2 (W2 m ρ c)

/-- `main_arg0` ends as launched: the host operations do not write it and each region only reads it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- `main_arg1` ends as launched: the host operations do not write it and each region only reads it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat1 (V1 m ρ) c).arrAt_in 1 rfl _).trans (A_eq1 (V1 m ρ) c 1))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_noalloc : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 as a segment: entered with every unscoped buffer at `W0`, left with them at `W1`; its arrays are split
    out of the unscoped buffers and put back at what the pipeline leaves; the generator register goes into the invariant and
    comes out; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W1`, left with them at `W2`; its arrays are split
    out of the unscoped buffers and put back at what the pipeline leaves; the generator register goes into the invariant and
    comes out; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_noalloc (W2 m ρ)) ]
theorem main_run (c : Dev nD) : main (F := F) c = Pipeline.Seg.run (segs m ρ) := (main_chain c).trans (by chain_rfl)

set_option backward.isDefEq.respectTransparency.types false in
/-- Every weakly fair execution of the program terminates, faults nowhere, and ends with the result buffer at the last
    stage of the fold and the two argument arrays as launched. -/
theorem run_all : θ_run defs (onTc (τ := τ) (main (F := F))) ⟨m, fun _ => 0, ρ⟩ (fun r => ∀ c : Dev nD,
      r.2.mem ((c.tc : Thread nD τ).loc main_v15) = W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v15 (by decide)),
       (h c _ (mem_uc main_arg0 (by decide))).trans (W3_main_arg0 m ρ c),
       (h c _ (mem_uc main_arg1 (by decide))).trans (W3_main_arg1 m ρ c)⟩)

/-- The frame: the program runs to the end and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_all m ρ)

end Cert.Kernel.Hand

end
-- ==== Proof.KI.Shared.lean ====
/- What the frame proof of the two pallas_calls shares: the tiles of the two point clouds as each region finds them,
   the closed forms of the kernels' two branches over the 16 × 16 grids, and the staging memrefs by name. -/
import proofs.«111773_j1408749273445_1_alg».proof.Proof.Gen.KernelIdeal.Launch
import proofs.«111773_j1408749273445_1_alg».proof.Proof.Gen.KernelIdeal.Skeleton
import proofs.«111773_j1408749273445_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0: what its two runs and its proof data share, at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point cloud's staging buffer holds its tile at every point, whether or not the point fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second point cloud's staging buffer likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! # Region 1: what its two runs and its proof data share, at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point cloud's staging buffer holds its tile at every point, whether or not the point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second point cloud's staging buffer likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## Region 0: the two branches over the grid

The grid is 16 × 16, the inner coordinate the position along the reduced axis. The first branch (store the
tile's minimum) is taken exactly at inner position 0, the second (combine with the running minimum) exactly at
the other fifteen: the two conditions, decided over the 256 points. -/

theorem hcond0_1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem hcond0_2 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- At every grid point one of the two branches stores into the output's staging buffer: it is never idle. -/
theorem live0_2 : ∀ t : Fin cfg0.N, idle0 2 (grid0.coords t) = false :=
  (by decide +kernel : ∀ t : Fin grid0.N, idle0 2 (grid0.coords t) = false)

/-- One staging buffer of the output window, through which its contents are stated. -/
abbrev VO0_2 : View sig .tc .vmem S16x256 .f32 := (Memref.whole cc0_stg2_0 : Memref sig .tc .vmem S16x256 .f32).view
/-- Each window's current staging memref at point `t`, spelled as the pipeline passes it, and its wholeness. -/
abbrev ms0_0 (t : Fin cfg0.N) : Memref sig .tc .vmem S16x256x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x256 .f32 := win0_2.stage (cfg0.slots t 2)
abbrev hs0_2 (t : Fin cfg0.N) : (ms0_2 t).IsWhole := hstage0_2 ((cfg0.slots t 2).cast nbuf0_2)

/-! ## Region 1: the two branches over the grid

The grid is 16 × 16, the inner coordinate the position along the reduced axis. The first branch (store the
tile's minimum) is taken exactly at inner position 0, the second (combine with the running minimum) exactly at
the other fifteen: the two conditions, decided over the 256 points. -/

theorem hcond1_1 : ∀ t : Fin cfg1.N, k1_cond1 (grid1.coords t) = 1#1 ↔ t.val % 16 = 0 :=
  (by decide +kernel : ∀ t : Fin grid1.N, k1_cond1 (grid1.coords t) = 1#1 ↔ t.val % 16 = 0)
theorem hcond1_2 : ∀ t : Fin cfg1.N, k1_cond2 (grid1.coords t) = 1#1 ↔ ¬ t.val % 16 = 0 :=
  (by decide +kernel : ∀ t : Fin grid1.N, k1_cond2 (grid1.coords t) = 1#1 ↔ ¬ t.val % 16 = 0)

/-- At every grid point one of the two branches stores into the output's staging buffer: it is never idle. -/
theorem live1_2 : ∀ t : Fin cfg1.N, idle1 2 (grid1.coords t) = false :=
  (by decide +kernel : ∀ t : Fin grid1.N, idle1 2 (grid1.coords t) = false)

/-- One staging buffer of the output window, through which its contents are stated. -/
abbrev VO1_2 : View sig .tc .vmem S16x256 .f32 := (Memref.whole cc1_stg2_0 : Memref sig .tc .vmem S16x256 .f32).view
/-- Each window's current staging memref at point `t`, spelled as the pipeline passes it, and its wholeness. -/
abbrev ms1_0 (t : Fin cfg1.N) : Memref sig .tc .vmem S16x256x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x256x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x256 .f32 := win1_2.stage (cfg1.slots t 2)
abbrev hs1_2 (t : Fin cfg1.N) : (ms1_2 t).IsWhole := hstage1_2 ((cfg1.slots t 2).cast nbuf1_2)

end Cert.KernelIdeal.Hand

end
-- ==== Proof.KI.RunA0.lean ====
/- The kernel body of region 0 run once, at the first step along the reduced axis of region 0 (the tile's minimum is stored; the second branch is skipped):
   on whole staging memrefs holding the two tiles, it ends with the tiles as they were and the output buffer written by
   the pieces the run finds. -/
import proofs.«111773_j1408749273445_1_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : k0_cond1 i = 1#1) (hc2 : ¬ k0_cond2 i = 1#1)
    (x0 : Vec F S16x256x3 .f32) (x1 : Vec F S16x256x3 .f32) :
    { L2 : List (View.Piece (Elt F) S16x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel_min_over_n1 i arg2 harg2 arg3 harg3 arg4 harg4) K } := by
  refine ⟨?_, fun E K => ?run⟩
  case run =>
    simp only [cc0__kernel_min_over_n1_eq_skeleton]; unfold cc0__kernel_min_over_n1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.RunB0.lean ====
/- The kernel body of region 0 run once, at a later step along the reduced axis of region 0 (the first branch is skipped; the running minimum `xo` is read back and combined with the tile's):
   on whole staging memrefs holding the two tiles, it ends with the tiles as they were and the output buffer written by
   the pieces the run finds. -/
import proofs.«111773_j1408749273445_1_alg».proof.Proof.KI.RunA0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : ¬ k0_cond1 i = 1#1) (hc2 : k0_cond2 i = 1#1)
    (x0 : Vec F S16x256x3 .f32) (x1 : Vec F S16x256x3 .f32) (xo : Vec F S16x256 .f32) :
    { L2 : List (View.Piece (Elt F) S16x256 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel_min_over_n1 i arg2 harg2 arg3 harg3 arg4 harg4) K } := by
  refine ⟨?_, fun E K => ?run⟩
  case run =>
    simp only [cc0__kernel_min_over_n1_eq_skeleton]; unfold cc0__kernel_min_over_n1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Region0.lean ====
/- Region 0 of the program, at the contents `V` it is entered with: what each of the two runs of the body leaves in the
   output's staging buffer, what that buffer holds after every grid point (the running minimum along the inner grid axis,
   restarted wherever the inner coordinate is 0), the pipeline's proof data over it, and the body obligation. -/
import proofs.«111773_j1408749273445_1_alg».proof.Proof.KI.RunB0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- No coordinate of the grid leaves the output's staging buffer unwritten: one of the two branches is always taken. -/
theorem live0_2_all : ∀ i : cfg0.grid.Coords, cfg0.idle 2 i = false := fun i => by
  have h : ∀ k : Fin 16, (!(Scalar.cmpi .ne (Scalar.extui (Scalar.cmpi .eq (BitVec.ofNat 32 k.val) 0#32)) 0#32 == 1#1)
      && !(Scalar.cmpi .ne (Scalar.extui (Scalar.cmpi .sgt (BitVec.ofNat 32 k.val) 0#32)) 0#32 == 1#1)) = false := by decide
  exact h (i 1)

/-- The first run's one store covers the output's staging buffer. -/
theorem cover0_A_2 (c : Dev nD) (i : grid0.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : k0_cond1 i = 1#1) (hc2 : ¬ k0_cond2 i = 1#1)
    (x0 : Vec F S16x256x3 .f32) (x1 : Vec F S16x256x3 .f32) (y : S16x256.Idx) :
    ∃ pc ∈ (kernelRun0_A c i arg2 harg2 arg3 harg3 arg4 harg4 hc1 hc2 x0 x1).1, y ∈ pc.1.set :=
  View.cover_of_tiledL (kernelRun0_A c i arg2 harg2 arg3 harg3 arg4 harg4 hc1 hc2 x0 x1).1 S16x256.size (by sl_kernel_rfl) y

/-- What the first run leaves in the output's staging buffer. -/
def out0_A_2 (c : Dev nD) (i : grid0.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : k0_cond1 i = 1#1) (hc2 : ¬ k0_cond2 i = 1#1)
    (x0 : Vec F S16x256x3 .f32) (x1 : Vec F S16x256x3 .f32) : Vec F S16x256 .f32 :=
  VO0_2.read (Elt F) (VO0_2.writes (Elt F) VO0_2.junk (kernelRun0_A c i arg2 harg2 arg3 harg3 arg4 harg4 hc1 hc2 x0 x1).1)

/-- The later runs' one store covers it too. -/
theorem cover0_B_2 (c : Dev nD) (i : grid0.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : ¬ k0_cond1 i = 1#1) (hc2 : k0_cond2 i = 1#1)
    (x0 : Vec F S16x256x3 .f32) (x1 : Vec F S16x256x3 .f32) (xo : Vec F S16x256 .f32) (y : S16x256.Idx) :
    ∃ pc ∈ (kernelRun0_B c i arg2 harg2 arg3 harg3 arg4 harg4 hc1 hc2 x0 x1 xo).1, y ∈ pc.1.set :=
  View.cover_of_tiledL (kernelRun0_B c i arg2 harg2 arg3 harg3 arg4 harg4 hc1 hc2 x0 x1 xo).1 S16x256.size (by sl_kernel_rfl) y

/-- What a later run leaves in the output's staging buffer, over the running contents `xo`. -/
def out0_B_2 (c : Dev nD) (i : grid0.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : ¬ k0_cond1 i = 1#1) (hc2 : k0_cond2 i = 1#1)
    (x0 : Vec F S16x256x3 .f32) (x1 : Vec F S16x256x3 .f32) (xo : Vec F S16x256 .f32) : Vec F S16x256 .f32 :=
  VO0_2.read (Elt F) (VO0_2.writes (Elt F) VO0_2.junk (kernelRun0_B c i arg2 harg2 arg3 harg3 arg4 harg4 hc1 hc2 x0 x1 xo).1)

/-! ## What the output's staging buffer holds after each point -/

/-- The running contents: at a point whose inner coordinate is 0 what the first run leaves, at any other what a later
    run leaves over the contents of the point before. -/
def outsAt0 (c : Dev nD) : (n : ℕ) → n < cfg0.N → Vec F S16x256 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_1 ⟨0, hn⟩).mpr (Nat.zero_mod _)) (fun h => ((hcond0_2 ⟨0, hn⟩).mp h) (Nat.zero_mod _)) (iblk0 V c 0 ⟨0, hn⟩) (iblk0 V c 1 ⟨0, hn⟩)
  | n + 1, hn =>
    if h0 : (n + 1) % 16 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_1 ⟨n + 1, hn⟩).mpr h0) (fun h => ((hcond0_2 ⟨n + 1, hn⟩).mp h) h0) (iblk0 V c 0 ⟨n + 1, hn⟩) (iblk0 V c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_1 ⟨n + 1, hn⟩).mp h)) ((hcond0_2 ⟨n + 1, hn⟩).mpr h0) (iblk0 V c 0 ⟨n + 1, hn⟩) (iblk0 V c 1 ⟨n + 1, hn⟩) (outsAt0 c n (Nat.lt_of_succ_lt hn))

theorem outsAt0_A (c : Dev nD) (t : Fin cfg0.N) (h0 : t.val % 16 = 0) :
    outsAt0 V c t.val t.isLt = out0_A_2 c (grid0.coords t) (ms0_0 t) (hs0_0 t) (ms0_1 t) (hs0_1 t) (ms0_2 t) (hs0_2 t) ((hcond0_1 t).mpr h0) (fun h => ((hcond0_2 t).mp h) h0) (iblk0 V c 0 t) (iblk0 V c 1 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = out0_B_2 c (grid0.coords t) (ms0_0 t) (hs0_0 t) (ms0_1 t) (hs0_1 t) (ms0_2 t) (hs0_2 t) (fun h => h0 ((hcond0_1 t).mp h)) ((hcond0_2 t).mpr h0) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each point cloud's buffer at its tile and the
    output's at the running contents; nothing owed, full shares, the invariant the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- Away from inner coordinate 0 the output's staging buffer still holds what the point before left: the block is
    written back only after inner coordinate 15, and the window is never idle. -/
theorem before0_2_B (c : Dev nD) (t : Fin cfg0.N) (h0 : ¬t.val % 16 = 0) (d) :
    (dat0 V c).before 2 t d = outsAt0 V c (t.val - 1) (Nat.lt_of_le_of_lt (Nat.sub_le _ _) t.isLt) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (live0_2_all) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the tiles are in their buffers; the inner coordinate says which run applies, and away from
    inner coordinate 0 the output's buffer holds the contents of the point before. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 16 = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_1 t).mpr h0) (fun h => ((hcond0_2 t).mp h) h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_1 t).mp h)) ((hcond0_2 t).mpr h0) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  simp only [live0_2 t]
  exact sound_body0 V c t

end Region

end Cert.KernelIdeal.Hand

end
-- ==== Proof.KI.RunA1.lean ====
/- The kernel body of region 1 run once, at the first step along the reduced axis of region 1 (the tile's minimum is stored; the second branch is skipped):
   on whole staging memrefs holding the two tiles, it ends with the tiles as they were and the output buffer written by
   the pieces the run finds. -/
import proofs.«111773_j1408749273445_1_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : k1_cond1 i = 1#1) (hc2 : ¬ k1_cond2 i = 1#1)
    (x0 : Vec F S16x256x3 .f32) (x1 : Vec F S16x256x3 .f32) :
    { L2 : List (View.Piece (Elt F) S16x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__kernel_min_over_n2 i arg2 harg2 arg3 harg3 arg4 harg4) K } := by
  refine ⟨?_, fun E K => ?run⟩
  case run =>
    simp only [cc1__kernel_min_over_n2_eq_skeleton]; unfold cc1__kernel_min_over_n2_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.RunB1.lean ====
/- The kernel body of region 1 run once, at a later step along the reduced axis of region 1 (the first branch is skipped; the running minimum `xo` is read back and combined with the tile's):
   on whole staging memrefs holding the two tiles, it ends with the tiles as they were and the output buffer written by
   the pieces the run finds. -/
import proofs.«111773_j1408749273445_1_alg».proof.Proof.KI.RunA1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : ¬ k1_cond1 i = 1#1) (hc2 : k1_cond2 i = 1#1)
    (x0 : Vec F S16x256x3 .f32) (x1 : Vec F S16x256x3 .f32) (xo : Vec F S16x256 .f32) :
    { L2 : List (View.Piece (Elt F) S16x256 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__kernel_min_over_n2 i arg2 harg2 arg3 harg3 arg4 harg4) K } := by
  refine ⟨?_, fun E K => ?run⟩
  case run =>
    simp only [cc1__kernel_min_over_n2_eq_skeleton]; unfold cc1__kernel_min_over_n2_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Region1.lean ====
/- Region 1 of the program, at the contents `V` it is entered with: what each of the two runs of the body leaves in the
   output's staging buffer, what that buffer holds after every grid point (the running minimum along the inner grid axis,
   restarted wherever the inner coordinate is 0), the pipeline's proof data over it, and the body obligation. -/
import proofs.«111773_j1408749273445_1_alg».proof.Proof.KI.RunB1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- No coordinate of the grid leaves the output's staging buffer unwritten: one of the two branches is always taken. -/
theorem live1_2_all : ∀ i : cfg1.grid.Coords, cfg1.idle 2 i = false := fun i => by
  have h : ∀ k : Fin 16, (!(Scalar.cmpi .ne (Scalar.extui (Scalar.cmpi .eq (BitVec.ofNat 32 k.val) 0#32)) 0#32 == 1#1)
      && !(Scalar.cmpi .ne (Scalar.extui (Scalar.cmpi .sgt (BitVec.ofNat 32 k.val) 0#32)) 0#32 == 1#1)) = false := by decide
  exact h (i 1)

/-- The first run's one store covers the output's staging buffer. -/
theorem cover1_A_2 (c : Dev nD) (i : grid1.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : k1_cond1 i = 1#1) (hc2 : ¬ k1_cond2 i = 1#1)
    (x0 : Vec F S16x256x3 .f32) (x1 : Vec F S16x256x3 .f32) (y : S16x256.Idx) :
    ∃ pc ∈ (kernelRun1_A c i arg2 harg2 arg3 harg3 arg4 harg4 hc1 hc2 x0 x1).1, y ∈ pc.1.set :=
  View.cover_of_tiledL (kernelRun1_A c i arg2 harg2 arg3 harg3 arg4 harg4 hc1 hc2 x0 x1).1 S16x256.size (by sl_kernel_rfl) y

/-- What the first run leaves in the output's staging buffer. -/
def out1_A_2 (c : Dev nD) (i : grid1.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : k1_cond1 i = 1#1) (hc2 : ¬ k1_cond2 i = 1#1)
    (x0 : Vec F S16x256x3 .f32) (x1 : Vec F S16x256x3 .f32) : Vec F S16x256 .f32 :=
  VO1_2.read (Elt F) (VO1_2.writes (Elt F) VO1_2.junk (kernelRun1_A c i arg2 harg2 arg3 harg3 arg4 harg4 hc1 hc2 x0 x1).1)

/-- The later runs' one store covers it too. -/
theorem cover1_B_2 (c : Dev nD) (i : grid1.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : ¬ k1_cond1 i = 1#1) (hc2 : k1_cond2 i = 1#1)
    (x0 : Vec F S16x256x3 .f32) (x1 : Vec F S16x256x3 .f32) (xo : Vec F S16x256 .f32) (y : S16x256.Idx) :
    ∃ pc ∈ (kernelRun1_B c i arg2 harg2 arg3 harg3 arg4 harg4 hc1 hc2 x0 x1 xo).1, y ∈ pc.1.set :=
  View.cover_of_tiledL (kernelRun1_B c i arg2 harg2 arg3 harg3 arg4 harg4 hc1 hc2 x0 x1 xo).1 S16x256.size (by sl_kernel_rfl) y

/-- What a later run leaves in the output's staging buffer, over the running contents `xo`. -/
def out1_B_2 (c : Dev nD) (i : grid1.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : ¬ k1_cond1 i = 1#1) (hc2 : k1_cond2 i = 1#1)
    (x0 : Vec F S16x256x3 .f32) (x1 : Vec F S16x256x3 .f32) (xo : Vec F S16x256 .f32) : Vec F S16x256 .f32 :=
  VO1_2.read (Elt F) (VO1_2.writes (Elt F) VO1_2.junk (kernelRun1_B c i arg2 harg2 arg3 harg3 arg4 harg4 hc1 hc2 x0 x1 xo).1)

/-! ## What the output's staging buffer holds after each point -/

/-- The running contents: at a point whose inner coordinate is 0 what the first run leaves, at any other what a later
    run leaves over the contents of the point before. -/
def outsAt1 (c : Dev nD) : (n : ℕ) → n < cfg1.N → Vec F S16x256 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_1 ⟨0, hn⟩).mpr (Nat.zero_mod _)) (fun h => ((hcond1_2 ⟨0, hn⟩).mp h) (Nat.zero_mod _)) (iblk1 V c 0 ⟨0, hn⟩) (iblk1 V c 1 ⟨0, hn⟩)
  | n + 1, hn =>
    if h0 : (n + 1) % 16 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_1 ⟨n + 1, hn⟩).mpr h0) (fun h => ((hcond1_2 ⟨n + 1, hn⟩).mp h) h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_1 ⟨n + 1, hn⟩).mp h)) ((hcond1_2 ⟨n + 1, hn⟩).mpr h0) (iblk1 V c 0 ⟨n + 1, hn⟩) (iblk1 V c 1 ⟨n + 1, hn⟩) (outsAt1 c n (Nat.lt_of_succ_lt hn))

theorem outsAt1_A (c : Dev nD) (t : Fin cfg1.N) (h0 : t.val % 16 = 0) :
    outsAt1 V c t.val t.isLt = out1_A_2 c (grid1.coords t) (ms1_0 t) (hs1_0 t) (ms1_1 t) (hs1_1 t) (ms1_2 t) (hs1_2 t) ((hcond1_1 t).mpr h0) (fun h => ((hcond1_2 t).mp h) h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = out1_B_2 c (grid1.coords t) (ms1_0 t) (hs1_0 t) (ms1_1 t) (hs1_1 t) (ms1_2 t) (hs1_2 t) (fun h => h0 ((hcond1_1 t).mp h)) ((hcond1_2 t).mpr h0) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each point cloud's buffer at its tile and the
    output's at the running contents; nothing owed, full shares, the invariant the scoped rest and the generator register. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- Away from inner coordinate 0 the output's staging buffer still holds what the point before left: the block is
    written back only after inner coordinate 15, and the window is never idle. -/
theorem before1_2_B (c : Dev nD) (t : Fin cfg1.N) (h0 : ¬t.val % 16 = 0) (d) :
    (dat1 V c).before 2 t d = outsAt1 V c (t.val - 1) (Nat.lt_of_le_of_lt (Nat.sub_le _ _) t.isLt) := by
  have hN : t.val < 256 := lt_of_lt_of_eq t.isLt (show cfg1.N = 256 from N_1)
  rw [Dat.before_out_kept _ 2 rfl t (by omega) (Bool.eq_false_iff.mpr fun h => by have := (flush1_2 _).mp h; dsimp only at this; omega)
    (live1_2_all) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the tiles are in their buffers; the inner coordinate says which run applies, and away from
    inner coordinate 0 the output's buffer holds the contents of the point before. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 16 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_1 t).mpr h0) (fun h => ((hcond1_2 t).mp h) h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_1 t).mp h)) ((hcond1_2 t).mpr h0) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  simp only [live1_2 t]
  exact sound_body1 V c t

end Region

end Cert.KernelIdeal.Hand

end
-- ==== Proof.KI.Run.lean ====
/- The whole program run: region 0, region 1, then the host operations. The unscoped buffers' contents at each
   boundary are a fold from the launch memory (a region replaces its arrays by what its write-backs leave, the host
   stretch applies its operations); every weakly fair execution terminates with every unscoped buffer at the fold's
   last stage, so the result is the host operations' term of the two regions' outputs and the arguments are as launched. -/
import proofs.«111773_j1408749273445_1_alg».proof.Proof.KI.Region0
import proofs.«111773_j1408749273445_1_alg».proof.Proof.KI.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1 likewise. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host operations. -/
abbrev W3 : Dev nD → Valuation τ sig (Elt F) := fun c => StableHlo.after hostOps2 (W2 m ρ c)

/-- `main_arg0` ends as launched: the host operations do not write it and each region only reads it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- `main_arg1` ends as launched: the host operations do not write it and each region only reads it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat1 (V1 m ρ) c).arrAt_in 1 rfl _).trans (A_eq1 (V1 m ρ) c 1))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_noalloc : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 as a segment: entered with every unscoped buffer at `W0`, left with them at `W1`; its arrays are split
    out of the unscoped buffers and put back at what the pipeline leaves; the generator register goes into the invariant and
    comes out; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W1`, left with them at `W2`; its arrays are split
    out of the unscoped buffers and put back at what the pipeline leaves; the generator register goes into the invariant and
    comes out; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_noalloc (W2 m ρ)) ]
theorem main_run (c : Dev nD) : main (F := F) c = Pipeline.Seg.run (segs m ρ) := (main_chain c).trans (by chain_rfl)

set_option backward.isDefEq.respectTransparency.types false in
/-- Every weakly fair execution of the program terminates, faults nowhere, and ends with the result buffer at the last
    stage of the fold and the two argument arrays as launched. -/
theorem run_all : θ_run defs (onTc (τ := τ) (main (F := F))) ⟨m, fun _ => 0, ρ⟩ (fun r => ∀ c : Dev nD,
      r.2.mem ((c.tc : Thread nD τ).loc main_v15) = W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v15 (by decide)),
       (h c _ (mem_uc main_arg0 (by decide))).trans (W3_main_arg0 m ρ c),
       (h c _ (mem_uc main_arg1 (by decide))).trans (W3_main_arg1 m ρ c)⟩)

/-- The frame: the program runs to the end and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_all m ρ)

end Cert.KernelIdeal.Hand

end
-- ==== Proof.KI.Pieces.lean ====
/- What each run of the two kernel bodies leaves in the output's staging buffer, as a pure function of the tiles it
   loaded. Each run makes exactly one store, of the whole 16 × 256 buffer at offset zero, so reading the buffer back
   after the run gives the stored value itself; and each load reads a whole buffer at offset zero, so the loaded value is
   the buffer's contents. At the first step along the reduced axis the stored value is the tile's minimum; at a later
   step it is the smaller of the running minimum already in the buffer and the tile's minimum. -/
import proofs.«111773_j1408749273445_1_alg».proof.Proof.KI.Region0
import proofs.«111773_j1408749273445_1_alg».proof.Proof.KI.Region1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The offset of a whole 16 × 256 access is zero in both coordinates. -/
private theorem zero_offsets2 : (![0, 0] : Fin 2 → Nat) = fun _ => 0 := funext fun a => by fin_cases a <;> rfl
/-- The offset of a whole 16 × 256 × 3 access is zero in all three coordinates. -/
private theorem zero_offsets3 : (![0, 0, 0] : Fin 3 → Nat) = fun _ => 0 := funext fun a => by fin_cases a <;> rfl

/-- Region 0, at the first step along the reduced axis: the one store covers the whole buffer at offset zero, and its
    value is the tile minimum of the two loaded tiles. -/
theorem out0_A_2_eq (c : Dev nD) (i : grid0.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : k0_cond1 i = 1#1) (hc2 : ¬ k0_cond2 i = 1#1)
    (x0 : Vec F S16x256x3 .f32) (x1 : Vec F S16x256x3 .f32) :
    out0_A_2 c i arg2 harg2 arg3 harg3 arg4 harg4 hc1 hc2 x0 x1 = k0_pay1 x0 x1 := by
  unfold out0_A_2
  rw [View.read_writes_eq_canon _ _ _ (cover0_A_2 c i arg2 harg2 arg3 harg3 arg4 harg4 hc1 hc2 x0 x1)]
  unfold kernelRun0_A
  dsimp only
  sl_unfold_words
  rw [View.canon_unit_zero zero_offsets2]
  simp only [View.readAt_eq_ld, harg2.read_unread, harg3.read_unread, View.ld_unit_zero (S := S16x256x3) zero_offsets3]

/-- Region 0, at a later step: the one store covers the whole buffer at offset zero, and its value is the smaller of
    what the buffer held (`xo`, read back whole) and the tile minimum of the two loaded tiles. -/
theorem out0_B_2_eq (c : Dev nD) (i : grid0.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : ¬ k0_cond1 i = 1#1) (hc2 : k0_cond2 i = 1#1)
    (x0 : Vec F S16x256x3 .f32) (x1 : Vec F S16x256x3 .f32) (xo : Vec F S16x256 .f32) :
    out0_B_2 c i arg2 harg2 arg3 harg3 arg4 harg4 hc1 hc2 x0 x1 xo = k0_pay2 x0 x1 xo := by
  unfold out0_B_2
  rw [View.read_writes_eq_canon _ _ _ (cover0_B_2 c i arg2 harg2 arg3 harg3 arg4 harg4 hc1 hc2 x0 x1 xo)]
  unfold kernelRun0_B
  dsimp only
  sl_unfold_words
  rw [View.canon_unit_zero zero_offsets2]
  simp only [View.readAt_eq_ld, harg2.read_unread, harg3.read_unread, harg4.read_unread, View.ld_unit_zero (S := S16x256x3) zero_offsets3, View.ld_unit_zero (S := S16x256) zero_offsets2]

/-- Region 1, at the first step along the reduced axis: the one store covers the whole buffer at offset zero, and its
    value is the tile minimum of the two loaded tiles. -/
theorem out1_A_2_eq (c : Dev nD) (i : grid1.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : k1_cond1 i = 1#1) (hc2 : ¬ k1_cond2 i = 1#1)
    (x0 : Vec F S16x256x3 .f32) (x1 : Vec F S16x256x3 .f32) :
    out1_A_2 c i arg2 harg2 arg3 harg3 arg4 harg4 hc1 hc2 x0 x1 = k1_pay1 x0 x1 := by
  unfold out1_A_2
  rw [View.read_writes_eq_canon _ _ _ (cover1_A_2 c i arg2 harg2 arg3 harg3 arg4 harg4 hc1 hc2 x0 x1)]
  unfold kernelRun1_A
  dsimp only
  sl_unfold_words
  rw [View.canon_unit_zero zero_offsets2]
  simp only [View.readAt_eq_ld, harg2.read_unread, harg3.read_unread, View.ld_unit_zero (S := S16x256x3) zero_offsets3]

/-- Region 1, at a later step: the one store covers the whole buffer at offset zero, and its value is the smaller of
    what the buffer held (`xo`, read back whole) and the tile minimum of the two loaded tiles. -/
theorem out1_B_2_eq (c : Dev nD) (i : grid1.Coords) (arg2 : Memref sig .tc .vmem S16x256x3 .f32) (harg2 : arg2.IsWhole) (arg3 : Memref sig .tc .vmem S16x256x3 .f32) (harg3 : arg3.IsWhole) (arg4 : Memref sig .tc .vmem S16x256 .f32) (harg4 : arg4.IsWhole) (hc1 : ¬ k1_cond1 i = 1#1) (hc2 : k1_cond2 i = 1#1)
    (x0 : Vec F S16x256x3 .f32) (x1 : Vec F S16x256x3 .f32) (xo : Vec F S16x256 .f32) :
    out1_B_2 c i arg2 harg2 arg3 harg3 arg4 harg4 hc1 hc2 x0 x1 xo = k1_pay2 x0 x1 xo := by
  unfold out1_B_2
  rw [View.read_writes_eq_canon _ _ _ (cover1_B_2 c i arg2 harg2 arg3 harg3 arg4 harg4 hc1 hc2 x0 x1 xo)]
  unfold kernelRun1_B
  dsimp only
  sl_unfold_words
  rw [View.canon_unit_zero zero_offsets2]
  simp only [View.readAt_eq_ld, harg2.read_unread, harg3.read_unread, harg4.read_unread, View.ld_unit_zero (S := S16x256x3) zero_offsets3, View.ld_unit_zero (S := S16x256) zero_offsets2]

end Cert.KernelIdeal.Hand

end
-- ==== Proof.Spec.lean ====
/- The mathematics of the claim, stated once over extended-real arrays and free of any program text.
   Two clouds of 4096 points in 3-space per batch (16 batches): `x` and `y`. The squared distance is written through the
   expansion |p|² + |q|² − 2·⟨p, q⟩; each point of one cloud is given its nearest squared distance in the other cloud (a
   minimum over 4096 candidates, started from the float +∞), and the two families of minima are averaged and scaled. -/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- A cloud array: 16 batches of `n` points of 3 coordinates. -/
abbrev Pts (n : Nat) : Shape := ⟨3, ![16, n, 3]⟩
/-- One value per batch and point. -/
abbrev Row (n : Nat) : Shape := ⟨2, ![16, n]⟩

/-- The float literal 2 (its exact value is never needed: both programs multiply by the same word). -/
abbrev two : EReal := Ideal.ofBits .f32 0x40000000#32
/-- The float +∞ word the minima start from. -/
abbrev top : EReal := Ideal.ofBits .f32 0x7F800000#32

/-- |p|² of point `r` of batch `b`. -/
def sqn {n : Nat} (x : (Pts n).Idx → EReal) (b : Fin 16) (r : Fin n) : EReal :=
  ∑ d : Fin 3, x (ix3 b r d) * x (ix3 b r d)

/-- ⟨p, q⟩ for point `r` of `x` and point `q` of `y`, batch `b`. -/
def cross {n k : Nat} (x : (Pts n).Idx → EReal) (y : (Pts k).Idx → EReal) (b : Fin 16) (r : Fin n) (q : Fin k) : EReal :=
  ∑ d : Fin 3, x (ix3 b r d) * y (ix3 b q d)

/-- The expanded squared distance, with the operations in the order both programs apply them. -/
def dist {n k : Nat} (x : (Pts n).Idx → EReal) (y : (Pts k).Idx → EReal) (b : Fin 16) (r : Fin n) (q : Fin k) : EReal :=
  (sqn x b r + sqn y b q) - two * cross x y b r q

/-- For each point `q` of the second cloud, the least expanded squared distance to a point of the first cloud. -/
def nearestInFirst (x y : (Pts 4096).Idx → EReal) : (Row 4096).Idx → EReal :=
  fun j => (Finset.univ : Finset (Fin 4096)).fold min top (fun r => dist x y (j 0) r (j 1))

/-- For each point `r` of the first cloud, the least expanded squared distance to a point of the second cloud. -/
def nearestInSecond (x y : (Pts 4096).Idx → EReal) : (Row 4096).Idx → EReal :=
  fun j => (Finset.univ : Finset (Fin 4096)).fold min top (fun q => dist x y (j 0) (j 1) q)

/-- The minimum over the first `n` candidates only: what a tiled computation holds part of the way through. -/
def partialMin {N : Nat} (f : Fin N → EReal) (n : Nat) : EReal :=
  (Finset.univ.filter fun r : Fin N => r.val < n).fold min top f

/-- The closing arithmetic both programs share: each family of minima averaged over its 4096 points, the two
    averages halved and added, that averaged over the 16 batches, times 100 — as host operations at the exact instance. -/
def closing (h1 : (Row 4096).ReducesTo [1] (⟨1, ![16]⟩ : Shape)) (hS : 0 < (⟨0, ![]⟩ : Shape).numel)
    (hb : (⟨0, ![]⟩ : Shape).BroadcastsInDim (⟨1, ![16]⟩ : Shape) (![] : Fin 0 → Fin (⟨1, ![16]⟩ : Shape).rank))
    (h0 : (⟨1, ![16]⟩ : Shape).ReducesTo [0] (⟨0, ![]⟩ : Shape))
    (u v : FVec Ideal (Row 4096) .f32) : FVec Ideal (⟨0, ![]⟩ : Shape) .f32 :=
  mulf (Host.divf (F := Ideal)
      (Host.reduceAdd (F := Ideal)
        (addf
          (mulf (broadcastInDim (⟨1, ![16]⟩ : Shape) ![] hb (constant (F := Ideal) (⟨0, ![]⟩ : Shape) .f32 0x3F000000#32))
            (Host.divf (F := Ideal) (Host.reduceAdd (F := Ideal) u (constant (F := Ideal) (⟨0, ![]⟩ : Shape) .f32 0x00000000#32) h1 hS)
              (broadcastInDim (⟨1, ![16]⟩ : Shape) ![] hb (constant (F := Ideal) (⟨0, ![]⟩ : Shape) .f32 0x45800000#32))))
          (mulf (broadcastInDim (⟨1, ![16]⟩ : Shape) ![] hb (constant (F := Ideal) (⟨0, ![]⟩ : Shape) .f32 0x3F000000#32))
            (Host.divf (F := Ideal) (Host.reduceAdd (F := Ideal) v (constant (F := Ideal) (⟨0, ![]⟩ : Shape) .f32 0x00000000#32) h1 hS)
              (broadcastInDim (⟨1, ![16]⟩ : Shape) ![] hb (constant (F := Ideal) (⟨0, ![]⟩ : Shape) .f32 0x45800000#32)))))
        (constant (F := Ideal) (⟨0, ![]⟩ : Shape) .f32 0x00000000#32) h0 hS)
      (constant (F := Ideal) (⟨0, ![]⟩ : Shape) .f32 0x41800000#32))
    (constant (F := Ideal) (⟨0, ![]⟩ : Shape) .f32 0x42C80000#32)

end Cert.Chamfer

end
-- ==== Proof.KI.Geom0.lean ====
/- The geometry of region 0 of the program: where each window's tile of 256 rows at a grid point lies in its array of
   4096 rows. The grid is 16 × 16 and point t has coordinates (t / 16, t % 16). The first cloud's tile moves with the
   inner coordinate t % 16; the second cloud's tile and the output's block move with the outer coordinate t / 16; the
   batch and coordinate axes are never split. The output's block is written back where the inner coordinate is 15. -/
import proofs.«111773_j1408749273445_1_alg».proof.Proof.KI.Region0
import proofs.«111773_j1408749273445_1_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

/-- The block indices of the three windows at every point of the grid: the first cloud's tile is number t % 16, the
    second cloud's tile and the output's block are number t / 16, and no other axis is split. -/
theorem idx_facts0 : ∀ t : Fin cfg0.N,
    win0_0.index t (0 : Fin 3) = 0 ∧ win0_0.index t (1 : Fin 3) = t.val % 16 ∧ win0_0.index t (2 : Fin 3) = 0
    ∧ win0_1.index t (0 : Fin 3) = 0 ∧ win0_1.index t (1 : Fin 3) = t.val / 16 ∧ win0_1.index t (2 : Fin 3) = 0
    ∧ win0_2.index t (0 : Fin 2) = 0 ∧ win0_2.index t (1 : Fin 2) = t.val / 16 :=
  (by decide +kernel : ∀ t : Fin grid0.N,
    win0_0.index t (0 : Fin 3) = 0 ∧ win0_0.index t (1 : Fin 3) = t.val % 16 ∧ win0_0.index t (2 : Fin 3) = 0
    ∧ win0_1.index t (0 : Fin 3) = 0 ∧ win0_1.index t (1 : Fin 3) = t.val / 16 ∧ win0_1.index t (2 : Fin 3) = 0
    ∧ win0_2.index t (0 : Fin 2) = 0 ∧ win0_2.index t (1 : Fin 2) = t.val / 16)

section Region
variable (V : (c : Dev nD) → (b : Ref sig .tc) → Buf (Elt Ideal) ((c : Thread nD τ).loc b))

/-- The first cloud's tile and the second cloud's tile at grid point `t` of region 0, as arrays of literal shape. -/
abbrev tileA0 (c : Dev nD) (t : Fin cfg0.N) : Vec Ideal S16x256x3 .f32 := iblk0 V c 0 t
abbrev tileB0 (c : Dev nD) (t : Fin cfg0.N) : Vec Ideal S16x256x3 .f32 := iblk0 V c 1 t

/-- Row `p` of tile number t % 16, and of tile number t / 16, is a row of the array of 4096. -/
theorem tile_lt0 (t : Fin cfg0.N) (p : Fin 256) : (t.val % 16) * 256 + p.val < 4096 ∧ (t.val / 16) * 256 + p.val < 4096 := by
  have hN : t.val < 256 := lt_of_lt_of_eq t.isLt (show cfg0.N = 256 from N_0)
  have hp : p.val < 256 := p.isLt
  constructor <;> omega

/-- The first cloud's tile at point `t` is points (t % 16)·256 … (t % 16)·256 + 255 of the first cloud. -/
theorem tileA0_apply (c : Dev nD) (t : Fin cfg0.N) (b : Fin 16) (p : Fin 256) (d : Fin 3) :
    tileA0 V c t (ix3 b p d) = V c main_arg0 (ix3 b ⟨(t.val % 16) * 256 + p.val, (tile_lt0 t p).1⟩ d) := by
  obtain ⟨e0, e1, e2, -⟩ := idx_facts0 t
  show V c main_arg0 (((cfg0.win 0).blk t).view.emb (ix3 b p d)) = V c main_arg0 _
  congr 1
  funext a; apply Fin.ext
  match a with
  | ⟨0, _⟩ => show win0_0.index t (0 : Fin 3) * 16 + 1 * b.val = b.val; rw [e0]; omega
  | ⟨1, _⟩ => show win0_0.index t (1 : Fin 3) * 256 + 1 * p.val = (t.val % 16) * 256 + p.val; rw [e1]; omega
  | ⟨2, _⟩ => show win0_0.index t (2 : Fin 3) * 3 + 1 * d.val = d.val; rw [e2]; omega

/-- The second cloud's tile at point `t` is points (t / 16)·256 … (t / 16)·256 + 255 of the second cloud. -/
theorem tileB0_apply (c : Dev nD) (t : Fin cfg0.N) (b : Fin 16) (q : Fin 256) (d : Fin 3) :
    tileB0 V c t (ix3 b q d) = V c main_arg1 (ix3 b ⟨(t.val / 16) * 256 + q.val, (tile_lt0 t q).2⟩ d) := by
  obtain ⟨-, -, -, e0, e1, e2, -⟩ := idx_facts0 t
  show V c main_arg1 (((cfg0.win 1).blk t).view.emb (ix3 b q d)) = V c main_arg1 _
  congr 1
  funext a; apply Fin.ext
  match a with
  | ⟨0, _⟩ => show win0_1.index t (0 : Fin 3) * 16 + 1 * b.val = b.val; rw [e0]; omega
  | ⟨1, _⟩ => show win0_1.index t (1 : Fin 3) * 256 + 1 * q.val = (t.val / 16) * 256 + q.val; rw [e1]; omega
  | ⟨2, _⟩ => show win0_1.index t (2 : Fin 3) * 3 + 1 * d.val = d.val; rw [e2]; omega

/-- The expanded squared distance between a point of one tile and a point of the other is that of the clouds' points the tiles hold. -/
theorem dist_tiles0 (c : Dev nD) (t : Fin cfg0.N) (b : Fin 16) (p q : Fin 256) :
    Cert.Chamfer.dist (tileA0 V c t) (tileB0 V c t) b p q
      = Cert.Chamfer.dist (V c main_arg0) (V c main_arg1) b ⟨(t.val % 16) * 256 + p.val, (tile_lt0 t p).1⟩ ⟨(t.val / 16) * 256 + q.val, (tile_lt0 t q).2⟩ := by
  unfold Cert.Chamfer.dist Cert.Chamfer.sqn Cert.Chamfer.cross
  simp only [tileA0_apply V c t b p, tileB0_apply V c t b q]

end Region

/-- Where the output's block at point `t` lies in the output array: all 16 batches, the 256 columns of tile `t / 16`. -/
theorem out_emb0 (t : Fin cfg0.N) (y : S16x256.Idx) :
    ((cfg0.win 2).blk t).view.emb y = (ix2 (y 0) ⟨(t.val / 16) * 256 + (y 1).val, (tile_lt0 t (y 1)).2⟩ : S16x4096.Idx) := by
  obtain ⟨-, -, -, -, -, -, e0, e1⟩ := idx_facts0 t
  funext a; apply Fin.ext
  match a with
  | ⟨0, _⟩ => show win0_2.index t (0 : Fin 2) * 16 + 1 * (y 0).val = (y 0).val; rw [e0]; omega
  | ⟨1, _⟩ => show win0_2.index t (1 : Fin 2) * 256 + 1 * (y 1).val = (t.val / 16) * 256 + (y 1).val; rw [e1]; omega

/-- An index of the output array is in point `t`'s block iff each coordinate is in the block's range on its axis. -/
theorem mem_out_blk0 (t : Fin cfg0.N) (i : S16x4096.Idx) :
    i ∈ ((cfg0.win 2).blk t).view.set
      ↔ ∀ a : Fin 2, win0_2.index t a * S16x256.size a ≤ (i a).val ∧ (i a).val < win0_2.index t a * S16x256.size a + S16x256.size a := by
  show i ∈ ((View.whole main_v0).slice (win0_2.rect t)).set ↔ _
  rw [View.set_slice_whole, Rect.mem_set_unit]
  exact Iff.rfl

/-- Every index of the output array lies in the block of a point that writes its block back. -/
theorem out_cover0 (i : S16x4096.Idx) : ∃ t : Fin cfg0.N, (cfg0.win 2).flush t = true ∧ i ∈ ((cfg0.win 2).blk t).view.set := by
  have hi0 : (i 0).val < 16 := (i 0).isLt
  have hi1 : (i 1).val < 4096 := (i 1).isLt
  have hlt : (i 1).val / 256 * 16 + 15 < cfg0.N := lt_of_lt_of_eq (by omega) (show (256 : Nat) = cfg0.N from N_0.symm)
  obtain ⟨t, ht⟩ : ∃ t : Fin cfg0.N, t.val = (i 1).val / 256 * 16 + 15 := ⟨⟨_, hlt⟩, rfl⟩
  obtain ⟨-, -, -, -, -, -, e0, e1⟩ := idx_facts0 t
  refine ⟨t, (flush0_2 t).mpr (by omega), ?_⟩
  rw [mem_out_blk0]
  intro a
  match a with
  | ⟨0, _⟩ =>
    show win0_2.index t (0 : Fin 2) * 16 ≤ (i 0).val ∧ (i 0).val < win0_2.index t (0 : Fin 2) * 16 + 16
    rw [e0]; omega
  | ⟨1, _⟩ =>
    show win0_2.index t (1 : Fin 2) * 256 ≤ (i 1).val ∧ (i 1).val < win0_2.index t (1 : Fin 2) * 256 + 256
    rw [e1]; omega

end Cert.KernelIdeal.Hand

end
-- ==== Proof.MinLaw.lean ====
/- The law of a minimum taken one tile at a time, over the extended reals and free of any program text.
   The running minimum after the first `n` candidates is the fold of `min` over the candidates of index below `n`,
   started from the float +∞ (which is the top element). The candidates below `n + T` are the disjoint union of those
   below `n` and the tile `n, n + 1, …, n + T - 1`; since `min ⊤ ⊤ = ⊤`, the fold over the union is the `min` of the
   two folds, and the fold over the tile re-indexes along the injection `p ↦ n + p`. -/
import proofs.«111773_j1408749273445_1_alg».proof.Proof.Spec
import Mathlib.Data.Finset.Fold
import Mathlib.Order.MinMax

noncomputable section

namespace Cert.Chamfer

open Idealize.ShloMosaic

/-- The float +∞ word denotes the top element of the extended reals. -/
theorem top_eq : (top : EReal) = ⊤ := by simp [top, Ideal.ofBits, Ideal.ieee]

/-- Before any candidate has been seen the running minimum is its starting value. -/
theorem partialMin_zero {N : Nat} (f : Fin N → EReal) : partialMin f 0 = top := by
  unfold partialMin
  have hempty : (Finset.univ.filter fun r : Fin N => r.val < 0) = ∅ := by
    ext r; simp
  rw [hempty, Finset.fold_empty]

/-- After all `N` candidates the running minimum is the full minimum. -/
theorem partialMin_all {N : Nat} (f : Fin N → EReal) :
    partialMin f N = (Finset.univ : Finset (Fin N)).fold min top f := by
  unfold partialMin
  have hall : (Finset.univ.filter fun r : Fin N => r.val < N) = Finset.univ := by
    ext r; simp [r.isLt]
  rw [hall]

/-- The tile of `T` consecutive candidates starting at `n`, as an injection into the candidates. -/
def tileEmb {N : Nat} (n T : Nat) (h : n + T ≤ N) : Fin T ↪ Fin N :=
  ⟨fun p => ⟨n + p.val, by omega⟩, fun p q hpq => by
    have hv : n + p.val = n + q.val := congrArg Fin.val hpq
    exact Fin.ext (by omega)⟩

/-- Extending the running minimum by one tile: the minimum over the first `n + T` candidates is the `min` of the
    minimum over the first `n` and the minimum over the tile. -/
theorem partialMin_add_tile {N : Nat} (f : Fin N → EReal) (n T : Nat) (h : n + T ≤ N) :
    partialMin f (n + T) = min (partialMin f n)
      ((Finset.univ : Finset (Fin T)).fold min top (fun p => f ⟨n + p.val, by omega⟩)) := by
  unfold partialMin
  have hdisj : Disjoint (Finset.univ.filter fun r : Fin N => r.val < n)
      ((Finset.univ : Finset (Fin T)).map (tileEmb n T h)) := by
    rw [Finset.disjoint_left]
    intro r hr hr'
    rw [Finset.mem_filter] at hr
    rw [Finset.mem_map] at hr'
    obtain ⟨p, _, hp⟩ := hr'
    have hv : n + p.val = r.val := congrArg Fin.val hp
    omega
  have hsplit : (Finset.univ.filter fun r : Fin N => r.val < n + T) =
      (Finset.univ.filter fun r : Fin N => r.val < n).disjUnion
        ((Finset.univ : Finset (Fin T)).map (tileEmb n T h)) hdisj := by
    ext r
    simp only [Finset.mem_filter, Finset.mem_univ, true_and, Finset.mem_disjUnion, Finset.mem_map]
    constructor
    · intro hr
      by_cases hlt : r.val < n
      · exact Or.inl hlt
      · exact Or.inr ⟨⟨r.val - n, by omega⟩, Fin.ext (show n + (r.val - n) = r.val by omega)⟩
    · rintro (hr | ⟨p, hp⟩)
      · omega
      · have hv : n + p.val = r.val := congrArg Fin.val hp
        omega
  rw [hsplit]
  calc Finset.fold min top f ((Finset.univ.filter fun r : Fin N => r.val < n).disjUnion
          ((Finset.univ : Finset (Fin T)).map (tileEmb n T h)) hdisj)
      = Finset.fold min (min top top) f ((Finset.univ.filter fun r : Fin N => r.val < n).disjUnion
          ((Finset.univ : Finset (Fin T)).map (tileEmb n T h)) hdisj) := by rw [min_self]
    _ = min (Finset.fold min top f (Finset.univ.filter fun r : Fin N => r.val < n))
          (Finset.fold min top f ((Finset.univ : Finset (Fin T)).map (tileEmb n T h))) :=
        Finset.fold_disjUnion hdisj
    _ = min (Finset.fold min top f (Finset.univ.filter fun r : Fin N => r.val < n))
          ((Finset.univ : Finset (Fin T)).fold min top (fun p => f ⟨n + p.val, by omega⟩)) := by
        rw [Finset.fold_map]; rfl

/-- The first tile alone: the minimum over the first `T` candidates is the minimum over that tile. -/
theorem partialMin_first_tile {N : Nat} (f : Fin N → EReal) (T : Nat) (h : T ≤ N) :
    partialMin f T = (Finset.univ : Finset (Fin T)).fold min top (fun p => f ⟨p.val, by omega⟩) := by
  have h0 : 0 + T ≤ N := by omega
  have hstep := partialMin_add_tile f 0 T h0
  rw [partialMin_zero, Nat.zero_add] at hstep
  rw [hstep, top_eq, min_eq_right le_top]
  refine Finset.fold_congr ?_
  intro p _
  exact congrArg f (Fin.ext (Nat.zero_add p.val))

end Cert.Chamfer

end
-- ==== Proof.Payload.lean ====
/- The kernel's per-tile arithmetic at exact (extended-real) values. From two loaded 16×256×3 tiles both regions form
   the same 16×256×256 tile D[b,p,q] = (|p|² + |q|²) − 2·⟨p, q⟩ — the expanded squared distance between point p of the
   first tile and point q of the second, batch b — and reduce it by `min` from the float +∞: region 0 over p (for each
   q), region 1 over q (for each p). On a later tile the stored running minimum is combined with the new value by `min`. -/
import proofs.«111773_j1408749273445_1_alg».proof.Proof.Gen.KernelIdeal.Skeleton
import proofs.«111773_j1408749273445_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The sum of squares along the coordinate axis of a 16×256×3 tile, at (b, r): |point r of batch b|². -/
theorem rowsq_apply (x : Vec Ideal S16x256x3 .f32) (hφ : FKind.Formats .f32)
    (hacc : (0x00000000#32 : BitVec 32) = FKind.add.neutral .f32 hφ) (b : Fin 16) (r : Fin 256) :
    multiReduction (F := Ideal) .add [2] S16x256 (mulf x x) 0x00000000#32 reduces_S16x256x3_S16x256 hφ hacc (ix2 b r)
      = Cert.Chamfer.sqn x b r := by
  refine (Ideal.multiReduction_add_single _ _ reduces_S16x256x3_S16x256 hφ hacc _).trans ?_
  unfold Cert.Chamfer.sqn
  refine Finset.sum_congr rfl fun d _ => ?_
  have e : reduces_S16x256x3_S16x256.lift (ix2 b r) d = ix3 b r d := funext fun a => Fin.ext (by
    match a with
    | ⟨0, _⟩ => rfl
    | ⟨1, _⟩ => rfl
    | ⟨2, _⟩ => rfl)
  rw [e]
  rfl

/-! The batched product of the two tiles: its dimension record contracts the coordinate axis (axis 2 of both
    operands), keeps axis 0 as the batch and axis 1 of each operand as a result axis. The operand indices of result
    index `i` and contraction index `c`, axis by axis. -/

theorem lhs_dot_0 (i : S16x256x256.Idx) (c : dot_S16x256x3_S16x256x3_S16x256x256_2_2_1_1_0_0.contr.Idx) :
    (dot_S16x256x3_S16x256x3_S16x256x256_2_2_1_1_0_0.lhsIdx i c 0).val = (i 0).val := by
  unfold DotDims.lhsIdx
  rw [dif_pos (show (0 : Fin S16x256x3.rank) ∈ dot_S16x256x3_S16x256x3_S16x256x256_2_2_1_1_0_0.lhsBatch by decide)]
  rfl
theorem lhs_dot_1 (i : S16x256x256.Idx) (c : dot_S16x256x3_S16x256x3_S16x256x256_2_2_1_1_0_0.contr.Idx) :
    (dot_S16x256x3_S16x256x3_S16x256x256_2_2_1_1_0_0.lhsIdx i c 1).val = (i 1).val := by
  unfold DotDims.lhsIdx
  rw [dif_neg (show ¬(1 : Fin S16x256x3.rank) ∈ dot_S16x256x3_S16x256x3_S16x256x256_2_2_1_1_0_0.lhsBatch by decide), dif_pos (show (1 : Fin S16x256x3.rank) ∈ dot_S16x256x3_S16x256x3_S16x256x256_2_2_1_1_0_0.lhsNonContracting by decide)]
  rfl
theorem lhs_dot_2 (i : S16x256x256.Idx) (c : dot_S16x256x3_S16x256x3_S16x256x256_2_2_1_1_0_0.contr.Idx) :
    (dot_S16x256x3_S16x256x3_S16x256x256_2_2_1_1_0_0.lhsIdx i c 2).val = (c ⟨0, by decide⟩).val :=
  dot_S16x256x3_S16x256x3_S16x256x256_2_2_1_1_0_0.lhsIdx_val_of_single rfl i c
theorem rhs_dot_0 (i : S16x256x256.Idx) (c : dot_S16x256x3_S16x256x3_S16x256x256_2_2_1_1_0_0.contr.Idx) :
    (dot_S16x256x3_S16x256x3_S16x256x256_2_2_1_1_0_0.rhsIdx i c 0).val = (i 0).val := by
  unfold DotDims.rhsIdx
  rw [dif_pos (show (0 : Fin S16x256x3.rank) ∈ dot_S16x256x3_S16x256x3_S16x256x256_2_2_1_1_0_0.rhsBatch by decide)]
  rfl
theorem rhs_dot_1 (i : S16x256x256.Idx) (c : dot_S16x256x3_S16x256x3_S16x256x256_2_2_1_1_0_0.contr.Idx) :
    (dot_S16x256x3_S16x256x3_S16x256x256_2_2_1_1_0_0.rhsIdx i c 1).val = (i 2).val := by
  unfold DotDims.rhsIdx
  rw [dif_neg (show ¬(1 : Fin S16x256x3.rank) ∈ dot_S16x256x3_S16x256x3_S16x256x256_2_2_1_1_0_0.rhsBatch by decide), dif_pos (show (1 : Fin S16x256x3.rank) ∈ dot_S16x256x3_S16x256x3_S16x256x256_2_2_1_1_0_0.rhsNonContracting by decide)]
  rfl
theorem rhs_dot_2 (i : S16x256x256.Idx) (c : dot_S16x256x3_S16x256x3_S16x256x256_2_2_1_1_0_0.contr.Idx) :
    (dot_S16x256x3_S16x256x3_S16x256x256_2_2_1_1_0_0.rhsIdx i c 2).val = (c ⟨0, by decide⟩).val :=
  dot_S16x256x3_S16x256x3_S16x256x256_2_2_1_1_0_0.rhsIdx_val_of_single rfl i c

/-- The batched product into a zero accumulator, at (b, p, q): the inner product of point p of the first tile with
    point q of the second, batch b. The narrowing of the operands is the identity on exact values. -/
theorem prod_apply (x0 x1 : Vec Ideal S16x256x3 .f32) (b : Fin 16) (p q : Fin 256) :
    matmul (F := Ideal) dot_S16x256x3_S16x256x3_S16x256x256_2_2_1_1_0_0 none (truncf .bf16 x0 bitsLt_bf16_f32) (truncf .bf16 x1 bitsLt_bf16_f32)
        (constant S16x256x256 .f32 0x00000000#32) (ix3 b p q)
      = Cert.Chamfer.cross x0 x1 b p q := by
  simp only [matmul]
  rw [Ideal.matmul_constant_zero_apply, ← Equiv.sum_comp (contrEquiv1 dot_S16x256x3_S16x256x3_S16x256x256_2_2_1_1_0_0 3 rfl rfl).symm]
  unfold Cert.Chamfer.cross
  refine Finset.sum_congr rfl fun k _ => ?_
  have hk := contrEquiv1_symm_val dot_S16x256x3_S16x256x3_S16x256x256_2_2_1_1_0_0 3 rfl rfl k
  have el : dot_S16x256x3_S16x256x3_S16x256x256_2_2_1_1_0_0.lhsIdx (ix3 b p q) ((contrEquiv1 dot_S16x256x3_S16x256x3_S16x256x256_2_2_1_1_0_0 3 rfl rfl).symm k) = ix3 b p k := funext fun a => Fin.ext (by
    match a with
    | ⟨0, _⟩ => exact lhs_dot_0 _ _
    | ⟨1, _⟩ => exact lhs_dot_1 _ _
    | ⟨2, _⟩ => exact (lhs_dot_2 _ _).trans hk)
  have er : dot_S16x256x3_S16x256x3_S16x256x256_2_2_1_1_0_0.rhsIdx (ix3 b p q) ((contrEquiv1 dot_S16x256x3_S16x256x3_S16x256x256_2_2_1_1_0_0 3 rfl rfl).symm k) = ix3 b q k := funext fun a => Fin.ext (by
    match a with
    | ⟨0, _⟩ => exact rhs_dot_0 _ _
    | ⟨1, _⟩ => exact rhs_dot_1 _ _
    | ⟨2, _⟩ => exact (rhs_dot_2 _ _).trans hk)
  rw [el, er]
  rfl

/-- The 16×256×256 tile both regions reduce: |p|² broadcast along q, plus |q|² broadcast along p, minus twice the
    batched product. -/
def dtile (x0 x1 : Vec Ideal S16x256x3 .f32) : FVec Ideal S16x256x256 .f32 :=
  subf
    (addf
      (broadcastTo S16x256x256
        (shapeCast S16x256x1
          (multiReduction (F := Ideal) .add [2] S16x256 (mulf x0 x0) 0x00000000#32 reduces_S16x256x3_S16x256 (.inl rfl) rfl)
          shapeCasts_S16x256_S16x256x1)
        broadcasts_S16x256x1_S16x256x256)
      (broadcastTo S16x256x256
        (shapeCast S16x1x256
          (multiReduction (F := Ideal) .add [2] S16x256 (mulf x1 x1) 0x00000000#32 reduces_S16x256x3_S16x256 (.inl rfl) rfl)
          shapeCasts_S16x256_S16x1x256)
        broadcasts_S16x1x256_S16x256x256))
    (mulf (broadcast S16x256x256 (Scalar.ofBits (F := Ideal) .f32 0x40000000#32))
      (matmul (F := Ideal) dot_S16x256x3_S16x256x3_S16x256x256_2_2_1_1_0_0 none (truncf .bf16 x0 bitsLt_bf16_f32) (truncf .bf16 x1 bitsLt_bf16_f32)
        (constant S16x256x256 .f32 0x00000000#32)))

/-- A row value kept as a trailing unit column and broadcast along the last axis reads the row value. -/
theorem bcast_col_apply (u : FVec Ideal S16x256 .f32) (b : Fin 16) (p q : Fin 256) :
    broadcastTo S16x256x256 (shapeCast S16x256x1 u shapeCasts_S16x256_S16x256x1) broadcasts_S16x256x1_S16x256x256 (ix3 b p q)
      = u (ix2 b p) := by
  refine (broadcastTo_apply _ broadcasts_S16x256x1_S16x256x256 (ix3 b p q) (ix3 b p (0 : Fin 1)) (fun a => ?_)).trans ?_
  · match a with
    | ⟨0, _⟩ => show b.val = if (16 : Nat) = 1 then 0 else b.val; rw [if_neg (by decide)]
    | ⟨1, _⟩ => show p.val = if (256 : Nat) = 1 then 0 else p.val; rw [if_neg (by decide)]
    | ⟨2, _⟩ => show 0 = if (1 : Nat) = 1 then 0 else q.val; rw [if_pos rfl]
  · refine shapeCast_apply u shapeCasts_S16x256_S16x256x1 (ix3 b p (0 : Fin 1)) (ix2 b p) ?_
    rw [Shape.rowMajor_val_two, Shape.rowMajor_val_three]
    show b.val * 256 + p.val = (b.val * 256 + p.val) * 1 + 0
    omega

/-- A row value kept as a middle unit row and broadcast along the middle axis reads the row value. -/
theorem bcast_row_apply (u : FVec Ideal S16x256 .f32) (b : Fin 16) (p q : Fin 256) :
    broadcastTo S16x256x256 (shapeCast S16x1x256 u shapeCasts_S16x256_S16x1x256) broadcasts_S16x1x256_S16x256x256 (ix3 b p q)
      = u (ix2 b q) := by
  refine (broadcastTo_apply _ broadcasts_S16x1x256_S16x256x256 (ix3 b p q) (ix3 b (0 : Fin 1) q) (fun a => ?_)).trans ?_
  · match a with
    | ⟨0, _⟩ => show b.val = if (16 : Nat) = 1 then 0 else b.val; rw [if_neg (by decide)]
    | ⟨1, _⟩ => show 0 = if (1 : Nat) = 1 then 0 else p.val; rw [if_pos rfl]
    | ⟨2, _⟩ => show q.val = if (256 : Nat) = 1 then 0 else q.val; rw [if_neg (by decide)]
  · refine shapeCast_apply u shapeCasts_S16x256_S16x1x256 (ix3 b (0 : Fin 1) q) (ix2 b q) ?_
    rw [Shape.rowMajor_val_two, Shape.rowMajor_val_three]
    show b.val * 256 + q.val = (b.val * 1 + 0) * 256 + q.val
    omega

/-- The tile at (b, p, q) is the expanded squared distance between point p of the first tile and point q of the
    second, batch b. -/
theorem dtile_apply (x0 x1 : Vec Ideal S16x256x3 .f32) (b : Fin 16) (p q : Fin 256) :
    dtile x0 x1 (ix3 b p q) = Cert.Chamfer.dist x0 x1 b p q := by
  unfold dtile Cert.Chamfer.dist
  rw [subf_apply, addf_apply, mulf_apply, broadcast_apply, bcast_col_apply, bcast_row_apply, prod_apply]
  exact congrArg₂ (· - ·) (congrArg₂ (· + ·) (rowsq_apply x0 _ _ b p) (rowsq_apply x1 _ _ b q)) rfl

/-- A minimum reduction over one axis, read at exact values: the fold of `min` from the accumulator's value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Region 0's tile value: for each point q of the second tile, the least expanded squared distance over the 256
    points p of the first tile. -/
theorem pay0_1_apply (x0 x1 : Vec Ideal S16x256x3 .f32) (b : Fin 16) (q : Fin 256) :
    (k0_pay1 (F := Ideal) x0 x1) (ix2 b q)
      = (Finset.univ : Finset (Fin 256)).fold min Cert.Chamfer.top (fun p => Cert.Chamfer.dist x0 x1 b p q) := by
  show multiReduction (F := Ideal) .minimumf [1] S16x256 (dtile x0 x1) 0x7F800000#32 reduces_S16x256x256_S16x256 (.inl rfl) rfl (ix2 b q) = _
  refine (multiReduction_minimumf_single _ _ reduces_S16x256x256_S16x256 _ _ _).trans ?_
  refine Finset.fold_congr fun (p : Fin 256) _ => ?_
  have e : reduces_S16x256x256_S16x256.lift (ix2 b q) p = (ix3 b p q : S16x256x256.Idx) := funext fun a => Fin.ext (by
    match a with
    | ⟨0, _⟩ => rfl
    | ⟨1, _⟩ => rfl
    | ⟨2, _⟩ => rfl)
  show dtile x0 x1 (reduces_S16x256x256_S16x256.lift (ix2 b q) p) = _
  rw [e]
  exact dtile_apply x0 x1 b p q

/-- Region 1's tile value: for each point p of the first tile, the least expanded squared distance over the 256
    points q of the second tile. -/
theorem pay1_1_apply (x0 x1 : Vec Ideal S16x256x3 .f32) (b : Fin 16) (p : Fin 256) :
    (k1_pay1 (F := Ideal) x0 x1) (ix2 b p)
      = (Finset.univ : Finset (Fin 256)).fold min Cert.Chamfer.top (fun q => Cert.Chamfer.dist x0 x1 b p q) := by
  show multiReduction (F := Ideal) .minimumf [2] S16x256 (dtile x0 x1) 0x7F800000#32 reduces_S16x256x256_S16x256_2 (.inl rfl) rfl (ix2 b p) = _
  refine (multiReduction_minimumf_single _ _ reduces_S16x256x256_S16x256_2 _ _ _).trans ?_
  refine Finset.fold_congr fun (q : Fin 256) _ => ?_
  have e : reduces_S16x256x256_S16x256_2.lift (ix2 b p) q = (ix3 b p q : S16x256x256.Idx) := funext fun a => Fin.ext (by
    match a with
    | ⟨0, _⟩ => rfl
    | ⟨1, _⟩ => rfl
    | ⟨2, _⟩ => rfl)
  show dtile x0 x1 (reduces_S16x256x256_S16x256_2.lift (ix2 b p) q) = _
  rw [e]
  exact dtile_apply x0 x1 b p q

/-- Region 0's later tiles: the stored running minimum against the new tile's value. -/
theorem pay0_2_apply (x0 x1 : Vec Ideal S16x256x3 .f32) (v : Vec Ideal S16x256 .f32) (j : S16x256.Idx) :
    (k0_pay2 (F := Ideal) x0 x1 v) j = min (v j) ((k0_pay1 (F := Ideal) x0 x1) j) := by
  show minimumf (shapeCast S16x256 v shapeCasts_S16x256_S16x256) (k0_pay1 (F := Ideal) x0 x1) j = _
  rw [shapeCast_self]
  rfl

/-- Region 1's later tiles likewise. -/
theorem pay1_2_apply (x0 x1 : Vec Ideal S16x256x3 .f32) (v : Vec Ideal S16x256 .f32) (j : S16x256.Idx) :
    (k1_pay2 (F := Ideal) x0 x1 v) j = min (v j) ((k1_pay1 (F := Ideal) x0 x1) j) := by
  show minimumf (shapeCast S16x256 v shapeCasts_S16x256_S16x256) (k1_pay1 (F := Ideal) x0 x1) j = _
  rw [shapeCast_self]
  rfl

end Cert.KernelIdeal.Payload

end
-- ==== Proof.KI.Value0.lean ====
/- What region 0 leaves in its output array: for each point of the second cloud, the least expanded squared distance to
   a point of the first cloud. Along the inner grid axis the output tile carries the minimum over the first cloud's rows
   seen so far; at the end of the axis all 4096 rows have been seen and the tile is written back. -/
import proofs.«111773_j1408749273445_1_alg».proof.Proof.KI.Region0
import proofs.«111773_j1408749273445_1_alg».proof.Proof.KI.Pieces
import proofs.«111773_j1408749273445_1_alg».proof.Proof.KI.Geom0
import proofs.«111773_j1408749273445_1_alg».proof.Proof.MinLaw
import proofs.«111773_j1408749273445_1_alg».proof.Proof.Payload
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

section Value
variable (V : (c : Dev nD) → (b : Ref sig .tc) → Buf (Elt Ideal) ((c : Thread nD τ).loc b))

/-! ## The running minimum along the inner grid axis -/

/-- The expanded squared distances from every row of the first cloud to the second cloud's row that row `q` of its
    tile at grid point `t` is. -/
abbrev toCol0 (c : Dev nD) (t : Fin cfg0.N) (b : Fin 16) (q : Fin 256) : Fin 4096 → EReal :=
  fun r => Cert.Chamfer.dist (V c main_arg0) (V c main_arg1) b r ⟨(t.val / 16) * 256 + q.val, (tile_lt0 t q).2⟩

/-- The tile arithmetic at grid point `t`: the least of those distances over the 256 rows of the first cloud that its
    tile holds there. -/
theorem tile_min0 (c : Dev nD) (t : Fin cfg0.N) (b : Fin 16) (q : Fin 256) :
    (k0_pay1 (F := Ideal) (tileA0 V c t) (tileB0 V c t)) (ix2 b q)
      = (Finset.univ : Finset (Fin 256)).fold min Cert.Chamfer.top
          (fun p => toCol0 V c t b q ⟨(t.val % 16) * 256 + p.val, (tile_lt0 t p).1⟩) :=
  (Cert.KernelIdeal.Payload.pay0_1_apply (tileA0 V c t) (tileB0 V c t) b q).trans
    (Finset.fold_congr fun p _ => dist_tiles0 V c t b p q)

/-- After grid point `n` the output's staging buffer holds, for row `q` of the second cloud's current tile, the least
    distance over the first cloud's rows seen so far along the inner axis: the first `(n % 16 + 1) · 256` of them. At
    inner position 0 the tile's minimum alone is stored; at a later one it is taken against what the point before left,
    which belongs to the same tile of the second cloud and has seen 256 rows fewer. -/
theorem running0_at (c : Dev nD) (n : ℕ) : ∀ (hn : n < cfg0.N) (b : Fin 16) (q : Fin 256),
    outsAt0 V c n hn (ix2 b q) = Cert.Chamfer.partialMin (toCol0 V c ⟨n, hn⟩ b q) ((n % 16 + 1) * 256) := by
  induction n using Nat.strong_induction_on with
  | _ n ih =>
    intro hn b q
    have hN : n < 256 := lt_of_lt_of_eq hn (show cfg0.N = 256 from N_0)
    by_cases h0 : n % 16 = 0
    · rw [outsAt0_A V c ⟨n, hn⟩ h0]
      refine (congrFun (out0_A_2_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩)
        ((hcond0_1 ⟨n, hn⟩).mpr h0) (fun h => ((hcond0_2 ⟨n, hn⟩).mp h) h0) (tileA0 V c ⟨n, hn⟩) (tileB0 V c ⟨n, hn⟩)) (ix2 b q)).trans ?_
      refine (tile_min0 V c ⟨n, hn⟩ b q).trans ?_
      rw [show (n % 16 + 1) * 256 = 256 by omega, Cert.Chamfer.partialMin_first_tile _ 256 (by omega)]
      refine Finset.fold_congr fun p _ => congrArg (toCol0 V c ⟨n, hn⟩ b q) (Fin.ext ?_)
      show (n % 16) * 256 + p.val = p.val
      omega
    · have hp : n - 1 < cfg0.N := Nat.lt_of_le_of_lt (Nat.sub_le _ _) hn
      rw [outsAt0_B V c ⟨n, hn⟩ h0]
      refine (congrFun (out0_B_2_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩)
        (fun h => h0 ((hcond0_1 ⟨n, hn⟩).mp h)) ((hcond0_2 ⟨n, hn⟩).mpr h0) (tileA0 V c ⟨n, hn⟩) (tileB0 V c ⟨n, hn⟩) (outsAt0 V c (n - 1) hp)) (ix2 b q)).trans ?_
      refine (Cert.KernelIdeal.Payload.pay0_2_apply (tileA0 V c ⟨n, hn⟩) (tileB0 V c ⟨n, hn⟩) (outsAt0 V c (n - 1) hp) (ix2 b q)).trans ?_
      refine (congrArg₂ min (ih (n - 1) (by omega) hp b q) (tile_min0 V c ⟨n, hn⟩ b q)).trans ?_
      have hcol : toCol0 V c ⟨n - 1, hp⟩ b q = toCol0 V c ⟨n, hn⟩ b q :=
        funext fun r => congrArg (Cert.Chamfer.dist (V c main_arg0) (V c main_arg1) b r) (Fin.ext (by
          show ((n - 1) / 16) * 256 + q.val = (n / 16) * 256 + q.val
          omega))
      rw [hcol, show ((n - 1) % 16 + 1) * 256 = (n % 16) * 256 by omega,
        show (n % 16 + 1) * 256 = (n % 16) * 256 + 256 by omega,
        Cert.Chamfer.partialMin_add_tile _ ((n % 16) * 256) 256 (by omega)]

/-- The same, at a grid point. -/
theorem running0 (c : Dev nD) (t : Fin cfg0.N) (b : Fin 16) (q : Fin 256) :
    outsAt0 V c t.val t.isLt (ix2 b q)
      = Cert.Chamfer.partialMin (fun r : Fin 4096 => Cert.Chamfer.dist (V c main_arg0) (V c main_arg1) b r
          ⟨(t.val / 16) * 256 + q.val, (tile_lt0 t q).2⟩) ((t.val % 16 + 1) * 256) :=
  running0_at V c t.val t.isLt b q

/-! ## The output array -/

/-- What a grid point at the end of the inner axis writes back is its block of the nearest distances: there all 4096
    rows of the first cloud have been seen. -/
theorem flushed0_eq (c : Dev nD) (t : Fin cfg0.N) (hf : (cfg0.win 2).flush t = true) :
    (dat0 V c).flushed 2 t
      = ((cfg0.win 2).blk t).view.read (Elt Ideal) (Cert.Chamfer.nearestInFirst (V c main_arg0) (V c main_arg1)) := by
  have h15 : t.val % 16 = 15 := (flush0_2 t).mp hf
  show (cfg0.win 2).cut (grid0.coords t) ((dat0 V c).after 2 t) = _
  rw [after0_2]
  funext j
  obtain ⟨b, q, rfl⟩ : ∃ (b : Fin 16) (q : Fin 256), j = ix2 b q := ⟨j 0, j 1, eq_ix2 j⟩
  show outsAt0 V c t.val t.isLt (ix2 b q)
    = Cert.Chamfer.nearestInFirst (V c main_arg0) (V c main_arg1) (((cfg0.win 2).blk t).view.emb (ix2 b q))
  rw [out_emb0 t (ix2 b q), running0 V c t b q, show (t.val % 16 + 1) * 256 = 4096 by omega, Cert.Chamfer.partialMin_all]
  rfl

/-- Region 0 leaves in its output array, for every point of the second cloud, the least expanded squared distance to a
    point of the first cloud: the sixteen blocks written back at the ends of the inner axis tile the array. -/
theorem final0 (c : Dev nD) : (dat0 V c).arrAt 2 cfg0.N = Cert.Chamfer.nearestInFirst (V c main_arg0) (V c main_arg1) :=
  (dat0 V c).arrAt_eq_of_cover 2 (Cert.Chamfer.nearestInFirst (V c main_arg0) (V c main_arg1)) (flushed0_eq V c) out_cover0

end Value

end Cert.KernelIdeal.Hand

end
-- ==== Proof.KI.Geom1.lean ====
/- Where region 1's tiles lie in their arrays. The grid is 16 × 16 and point `t` has coordinates (t / 16, t % 16). The
   first cloud's 256-point tile and the output's 256-column block move with the outer coordinate t / 16, the second
   cloud's tile with the inner coordinate t % 16; the batch axis and the coordinate axis are never split. The output's
   block is written back at the last inner position, and those blocks fill the output array. -/
import proofs.«111773_j1408749273445_1_alg».proof.Proof.KI.Region1
import proofs.«111773_j1408749273445_1_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

/-- The index maps over the 256 grid points: the outer coordinate `t / 16` picks the first cloud's tile and the output's
    block, the inner coordinate `t % 16` the second cloud's tile; every other axis is taken whole. -/
theorem idx_facts1 : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16 :=
  (by decide +kernel : ∀ t : Fin grid1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16)

section Region
variable (V : (c : Dev nD) → (b : Ref sig .tc) → Buf (Elt Ideal) ((c : Thread nD τ).loc b))

/-- The first cloud's tile and the second cloud's tile at grid point `t` of region 1, as arrays of literal shape. -/
abbrev tileA1 (c : Dev nD) (t : Fin cfg1.N) : Vec Ideal S16x256x3 .f32 := iblk1 V c 0 t
abbrev tileB1 (c : Dev nD) (t : Fin cfg1.N) : Vec Ideal S16x256x3 .f32 := iblk1 V c 1 t

/-- Row `p` of either tile at point `t` is a row of its 4096-row cloud. -/
theorem tile_lt1 (t : Fin cfg1.N) (p : Fin 256) : (t.val / 16) * 256 + p.val < 4096 ∧ (t.val % 16) * 256 + p.val < 4096 := by
  have hN : t.val < 256 := lt_of_lt_of_eq t.isLt (show cfg1.N = 256 from N_1)
  have hp : p.val < 256 := p.isLt
  constructor <;> omega

/-- The first cloud's tile at point `t` is rows `(t / 16)·256 … (t / 16)·256 + 255` of the first cloud. -/
theorem tileA1_apply (c : Dev nD) (t : Fin cfg1.N) (b : Fin 16) (p : Fin 256) (d : Fin 3) :
    tileA1 V c t (ix3 b p d) = V c main_arg0 (ix3 b ⟨(t.val / 16) * 256 + p.val, (tile_lt1 t p).1⟩ d) := by
  obtain ⟨e0, e1, e2, -⟩ := idx_facts1 t
  show V c main_arg0 (((cfg1.win 0).blk t).view.emb (ix3 b p d)) = V c main_arg0 _
  congr 1
  funext a; apply Fin.ext
  match a with
  | ⟨0, _⟩ => show win1_0.index t (0 : Fin 3) * 16 + 1 * b.val = b.val; rw [e0]; omega
  | ⟨1, _⟩ => show win1_0.index t (1 : Fin 3) * 256 + 1 * p.val = (t.val / 16) * 256 + p.val; rw [e1]; omega
  | ⟨2, _⟩ => show win1_0.index t (2 : Fin 3) * 3 + 1 * d.val = d.val; rw [e2]; omega

/-- The second cloud's tile at point `t` is rows `(t % 16)·256 … (t % 16)·256 + 255` of the second cloud. -/
theorem tileB1_apply (c : Dev nD) (t : Fin cfg1.N) (b : Fin 16) (q : Fin 256) (d : Fin 3) :
    tileB1 V c t (ix3 b q d) = V c main_arg1 (ix3 b ⟨(t.val % 16) * 256 + q.val, (tile_lt1 t q).2⟩ d) := by
  obtain ⟨-, -, -, e0, e1, e2, -⟩ := idx_facts1 t
  show V c main_arg1 (((cfg1.win 1).blk t).view.emb (ix3 b q d)) = V c main_arg1 _
  congr 1
  funext a; apply Fin.ext
  match a with
  | ⟨0, _⟩ => show win1_1.index t (0 : Fin 3) * 16 + 1 * b.val = b.val; rw [e0]; omega
  | ⟨1, _⟩ => show win1_1.index t (1 : Fin 3) * 256 + 1 * q.val = (t.val % 16) * 256 + q.val; rw [e1]; omega
  | ⟨2, _⟩ => show win1_1.index t (2 : Fin 3) * 3 + 1 * d.val = d.val; rw [e2]; omega

/-- The expanded squared distance between a point of one tile and a point of the other is that of the clouds' points the tiles hold. -/
theorem dist_tiles1 (c : Dev nD) (t : Fin cfg1.N) (b : Fin 16) (p q : Fin 256) :
    Cert.Chamfer.dist (tileA1 V c t) (tileB1 V c t) b p q
      = Cert.Chamfer.dist (V c main_arg0) (V c main_arg1) b ⟨(t.val / 16) * 256 + p.val, (tile_lt1 t p).1⟩ ⟨(t.val % 16) * 256 + q.val, (tile_lt1 t q).2⟩ := by
  unfold Cert.Chamfer.dist Cert.Chamfer.sqn Cert.Chamfer.cross
  simp only [tileA1_apply V c t b p, tileB1_apply V c t b q]

end Region

/-- An index of the output array is in point `t`'s block iff each coordinate is in the block's range on its axis. -/
theorem mem_out_blk1 (t : Fin cfg1.N) (i : S16x4096.Idx) :
    i ∈ ((cfg1.win 2).blk t).view.set ↔ ∀ a : Fin 2, win1_2.index t a * S16x256.size a ≤ (i a).val ∧ (i a).val < win1_2.index t a * S16x256.size a + S16x256.size a := by
  show i ∈ ((View.whole main_v1).slice (win1_2.rect t)).set ↔ _
  rw [View.set_slice_whole, Rect.mem_set_unit]
  exact Iff.rfl

/-- Where the output's block at point `t` lies in the output array: all 16 batches, the 256 columns of tile `t / 16`. -/
theorem out_emb1 (t : Fin cfg1.N) (y : S16x256.Idx) :
    ((cfg1.win 2).blk t).view.emb y = (ix2 (y 0) ⟨(t.val / 16) * 256 + (y 1).val, (tile_lt1 t (y 1)).1⟩ : S16x4096.Idx) := by
  obtain ⟨-, -, -, -, -, -, e0, e1⟩ := idx_facts1 t
  funext a; apply Fin.ext
  match a with
  | ⟨0, _⟩ => show win1_2.index t (0 : Fin 2) * 16 + 1 * (y 0).val = (y 0).val; rw [e0]; omega
  | ⟨1, _⟩ => show win1_2.index t (1 : Fin 2) * 256 + 1 * (y 1).val = (t.val / 16) * 256 + (y 1).val; rw [e1]; omega

/-- Every index of the output array lies in the block of a point that writes its block back. -/
theorem out_cover1 (i : S16x4096.Idx) : ∃ t : Fin cfg1.N, (cfg1.win 2).flush t = true ∧ i ∈ ((cfg1.win 2).blk t).view.set := by
  have hi0 : (i 0).val < 16 := (i 0).isLt
  have hi1 : (i 1).val < 4096 := (i 1).isLt
  have hlt : (i 1).val / 256 * 16 + 15 < cfg1.N := lt_of_lt_of_eq (by omega) (show (256 : Nat) = cfg1.N from N_1.symm)
  refine ⟨⟨(i 1).val / 256 * 16 + 15, hlt⟩, ?_, ?_⟩
  · rw [flush1_2]
    show ((i 1).val / 256 * 16 + 15) % 16 = 15
    omega
  · obtain ⟨-, -, -, -, -, -, e0, e1⟩ := idx_facts1 ⟨(i 1).val / 256 * 16 + 15, hlt⟩
    have e1' : win1_2.index ⟨(i 1).val / 256 * 16 + 15, hlt⟩ (1 : Fin 2) = ((i 1).val / 256 * 16 + 15) / 16 := e1
    rw [mem_out_blk1]
    intro a
    match a with
    | ⟨0, _⟩ =>
      show win1_2.index ⟨(i 1).val / 256 * 16 + 15, hlt⟩ (0 : Fin 2) * 16 ≤ (i 0).val ∧ (i 0).val < win1_2.index ⟨(i 1).val / 256 * 16 + 15, hlt⟩ (0 : Fin 2) * 16 + 16
      rw [e0]; omega
    | ⟨1, _⟩ =>
      show win1_2.index ⟨(i 1).val / 256 * 16 + 15, hlt⟩ (1 : Fin 2) * 256 ≤ (i 1).val ∧ (i 1).val < win1_2.index ⟨(i 1).val / 256 * 16 + 15, hlt⟩ (1 : Fin 2) * 256 + 256
      rw [e1']; omega

end Cert.KernelIdeal.Hand

end
-- ==== Proof.KI.Value1.lean ====
/- What region 1 of the idealized kernel leaves in its output array, as one function of the two point clouds: for every
   point of the first cloud the least expanded squared distance to a point of the second cloud. The second cloud is
   visited in sixteen tiles of 256 points along the inner grid axis; the output's staging buffer carries the minimum
   over the tiles visited so far, and is written back after the sixteenth. -/
import proofs.«111773_j1408749273445_1_alg».proof.Proof.KI.Region1
import proofs.«111773_j1408749273445_1_alg».proof.Proof.KI.Pieces
import proofs.«111773_j1408749273445_1_alg».proof.Proof.KI.Geom1
import proofs.«111773_j1408749273445_1_alg».proof.Proof.MinLaw
import proofs.«111773_j1408749273445_1_alg».proof.Proof.Payload
import proofs.«111773_j1408749273445_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

section Region
variable (V : (c : Dev nD) → (b : Ref sig .tc) → Buf (Elt Ideal) ((c : Thread nD τ).loc b))

/-! ## The running minimum -/

/-- The distance between points of the two tiles, with the clouds' points named by their positions. -/
theorem dist_tiles_at (c : Dev nD) (t : Fin cfg1.N) (b : Fin 16) (p q : Fin 256) (r s : Fin 4096)
    (hr : r.val = (t.val / 16) * 256 + p.val) (hs : s.val = (t.val % 16) * 256 + q.val) :
    Cert.Chamfer.dist (tileA1 V c t) (tileB1 V c t) b p q = Cert.Chamfer.dist (V c main_arg0) (V c main_arg1) b r s := by
  obtain rfl : r = ⟨(t.val / 16) * 256 + p.val, (tile_lt1 t p).1⟩ := Fin.ext hr
  obtain rfl : s = ⟨(t.val % 16) * 256 + q.val, (tile_lt1 t q).2⟩ := Fin.ext hs
  exact dist_tiles1 V c t b p q

/-- After grid point `n` the output's staging buffer holds, for point `r = (n / 16)·256 + p` of the first cloud, the least
    expanded squared distance to the first `(n % 16 + 1)·256` points of the second cloud: at inner coordinate 0 the
    first tile's own minimum, afterwards the smaller of the minimum so far and the next tile's. -/
theorem running_min (c : Dev nD) : ∀ (n : Nat) (hn : n < cfg1.N) (b : Fin 16) (p : Fin 256) (r : Fin 4096),
    r.val = (n / 16) * 256 + p.val →
    outsAt1 V c n hn (ix2 b p)
      = Cert.Chamfer.partialMin (fun q : Fin 4096 => Cert.Chamfer.dist (V c main_arg0) (V c main_arg1) b r q) ((n % 16 + 1) * 256) := by
  intro n
  induction n using Nat.strong_induction_on with
  | _ n ih =>
    intro hn b p r hr
    have hN : n < 256 := lt_of_lt_of_eq hn (show cfg1.N = 256 from N_1)
    by_cases h0 : n % 16 = 0
    · -- the first tile of the second cloud: the tile's own minimum
      refine (congrFun (outsAt1_A V c ⟨n, hn⟩ h0) (ix2 b p)).trans ?_
      refine (congrFun (out1_A_2_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) ((hcond1_1 ⟨n, hn⟩).mpr h0) (fun h => ((hcond1_2 ⟨n, hn⟩).mp h) h0) (iblk1 V c 0 ⟨n, hn⟩) (iblk1 V c 1 ⟨n, hn⟩)) (ix2 b p)).trans ?_
      refine (Cert.KernelIdeal.Payload.pay1_1_apply (tileA1 V c ⟨n, hn⟩) (tileB1 V c ⟨n, hn⟩) b p).trans ?_
      rw [show (n % 16 + 1) * 256 = 256 by omega, Cert.Chamfer.partialMin_first_tile _ 256 (by norm_num)]
      congr 1
      funext q
      exact dist_tiles_at V c ⟨n, hn⟩ b p q r ⟨q.val, by have := q.isLt; omega⟩ hr (by show q.val = (n % 16) * 256 + q.val; omega)
    · -- a later tile: the smaller of the minimum so far and the tile's own
      have hn' : n - 1 < cfg1.N := Nat.lt_of_le_of_lt (Nat.sub_le _ _) hn
      refine (congrFun (outsAt1_B V c ⟨n, hn⟩ h0) (ix2 b p)).trans ?_
      refine (congrFun (out1_B_2_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (fun h => h0 ((hcond1_1 ⟨n, hn⟩).mp h)) ((hcond1_2 ⟨n, hn⟩).mpr h0) (iblk1 V c 0 ⟨n, hn⟩) (iblk1 V c 1 ⟨n, hn⟩) (outsAt1 V c (n - 1) hn')) (ix2 b p)).trans ?_
      refine (Cert.KernelIdeal.Payload.pay1_2_apply (tileA1 V c ⟨n, hn⟩) (tileB1 V c ⟨n, hn⟩) (outsAt1 V c (n - 1) hn') (ix2 b p)).trans ?_
      refine (congrArg₂ min (ih (n - 1) (by omega) hn' b p r (by omega))
        (Cert.KernelIdeal.Payload.pay1_1_apply (tileA1 V c ⟨n, hn⟩) (tileB1 V c ⟨n, hn⟩) b p)).trans ?_
      rw [show ((n - 1) % 16 + 1) * 256 = (n % 16) * 256 by omega, show (n % 16 + 1) * 256 = (n % 16) * 256 + 256 by omega,
        Cert.Chamfer.partialMin_add_tile _ ((n % 16) * 256) 256 (by omega)]
      congr 2
      funext q
      exact dist_tiles_at V c ⟨n, hn⟩ b p q r ⟨(n % 16) * 256 + q.val, by have := q.isLt; omega⟩ hr rfl

/-- The same at a grid point, with the first cloud's point written out. -/
theorem running1 (c : Dev nD) (t : Fin cfg1.N) (b : Fin 16) (p : Fin 256) :
    outsAt1 V c t.val t.isLt (ix2 b p)
      = Cert.Chamfer.partialMin (fun q : Fin 4096 => Cert.Chamfer.dist (V c main_arg0) (V c main_arg1) b
          ⟨(t.val / 16) * 256 + p.val, (tile_lt1 t p).1⟩ q)
        ((t.val % 16 + 1) * 256) :=
  running_min V c t.val t.isLt b p _ rfl

/-! ## The output array -/

/-- What a point at inner coordinate 15 writes back: for the 256 points of the first cloud's tile `t / 16`, the least
    expanded squared distance to ALL 4096 points of the second cloud. -/
theorem written_back (c : Dev nD) (t : Fin cfg1.N) (h15 : t.val % 16 = 15) (y : S16x256.Idx) :
    outsAt1 V c t.val t.isLt y
      = Cert.Chamfer.nearestInSecond (V c main_arg0) (V c main_arg1) (((cfg1.win 2).blk t).view.emb y) := by
  obtain ⟨b, p, rfl⟩ : ∃ (b : Fin 16) (p : Fin 256), y = ix2 b p := ⟨y 0, y 1, eq_ix2 y⟩
  refine (running1 V c t b p).trans ?_
  refine Eq.trans ?_ (congrArg (Cert.Chamfer.nearestInSecond (V c main_arg0) (V c main_arg1)) (out_emb1 t (ix2 b p))).symm
  rw [show (t.val % 16 + 1) * 256 = 4096 by omega, Cert.Chamfer.partialMin_all]
  rfl

/-- THE OUTPUT ARRAY of region 1 after its run: every point of the first cloud at its nearest expanded squared distance
    in the second cloud. The sixteen blocks written back (one per tile of the first cloud) cover the array. -/
theorem final1 (c : Dev nD) : (dat1 V c).arrAt 2 cfg1.N = Cert.Chamfer.nearestInSecond (V c main_arg0) (V c main_arg1) := by
  refine (dat1 V c).arrAt_eq_of_cover 2 (Cert.Chamfer.nearestInSecond (V c main_arg0) (V c main_arg1)) (fun t hf => ?_) out_cover1
  have h15 : t.val % 16 = 15 := (flush1_2 t).mp hf
  show (cfg1.win 2).cut (grid1.coords t) ((dat1 V c).after 2 t) = _
  rw [after1_2]
  funext j
  exact written_back V c t h15 j

end Region

end Cert.KernelIdeal.Hand

end
-- ==== Proof.KI.Result.lean ====
/- The result of the idealized kernel program as one function of its two argument arrays: the closing arithmetic of
   the nearest-distance arrays the two regions leave. -/
import proofs.«111773_j1408749273445_1_alg».proof.Proof.KI.Run
import proofs.«111773_j1408749273445_1_alg».proof.Proof.KI.Value0
import proofs.«111773_j1408749273445_1_alg».proof.Proof.KI.Value1
import proofs.«111773_j1408749273445_1_alg».proof.Proof.Spec
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The result buffer after the host operations: the closing arithmetic of the two regions' output arrays. -/
theorem W3_result (c : Dev nD) :
    W3 (F := Ideal) m ρ c (Proc.devRef .tc main_v15)
      = Cert.Chamfer.closing reducesTo_S16x4096_S16_d1 h_S_ bcast_S_S16 reducesTo_S16_S_d0
          (W2 (F := Ideal) m ρ c (Proc.devRef .tc main_v0)) (W2 (F := Ideal) m ρ c (Proc.devRef .tc main_v1)) := by
  show StableHlo.after hostOps2 (W2 (F := Ideal) m ρ c) (Proc.devRef .tc main_v15) = _
  after_results
  rfl

/-- Region 1 is entered with the two clouds as launched: region 0 only reads them. -/
theorem V1_main_arg0 (c : Dev nD) : V1 (F := Ideal) m ρ c main_arg0 = m ((c : Thread nD τ).loc main_arg0) :=
  (W1_arr m ρ c 0).trans (((dat0 (V0 m ρ) c).arrAt_in 0 rfl _).trans (A_eq0 (V0 m ρ) c 0))
theorem V1_main_arg1 (c : Dev nD) : V1 (F := Ideal) m ρ c main_arg1 = m ((c : Thread nD τ).loc main_arg1) :=
  (W1_arr m ρ c 1).trans (((dat0 (V0 m ρ) c).arrAt_in 1 rfl _).trans (A_eq0 (V0 m ρ) c 1))

/-- After both regions the first output array holds, for every point of the second cloud, its nearest squared
    distance in the first cloud: region 1 does not touch it. -/
theorem W2_main_v0 (c : Dev nD) :
    W2 (F := Ideal) m ρ c (Proc.devRef .tc main_v0)
      = Cert.Chamfer.nearestInFirst (m ((c : Thread nD τ).loc main_arg0)) (m ((c : Thread nD τ).loc main_arg1)) :=
  (W2_of_ne m ρ c main_v0 (by decide)).trans ((W1_arr m ρ c 2).trans (final0 (V0 m ρ) c))

/-- And the second output array, for every point of the first cloud, its nearest squared distance in the second. -/
theorem W2_main_v1 (c : Dev nD) :
    W2 (F := Ideal) m ρ c (Proc.devRef .tc main_v1)
      = Cert.Chamfer.nearestInSecond (m ((c : Thread nD τ).loc main_arg0)) (m ((c : Thread nD τ).loc main_arg1)) := by
  refine (W2_arr m ρ c 2).trans ((final1 (V1 m ρ) c).trans ?_)
  rw [V1_main_arg0, V1_main_arg1]

/-- Every weakly fair execution of the idealized kernel program terminates with the result at the closing arithmetic
    of the two nearest-distance arrays of the launch contents, and the two clouds as launched. -/
theorem run_value : θ_run defs (onTc (τ := τ) (main (F := Ideal))) ⟨m, fun _ => 0, ρ⟩ (fun r => ∀ c : Dev nD,
      r.2.mem ((c.tc : Thread nD τ).loc main_v15)
        = Cert.Chamfer.closing reducesTo_S16x4096_S16_d1 h_S_ bcast_S_S16 reducesTo_S16_S_d0
            (Cert.Chamfer.nearestInFirst (m ((c.tc : Thread nD τ).loc main_arg0)) (m ((c.tc : Thread nD τ).loc main_arg1)))
            (Cert.Chamfer.nearestInSecond (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (by rw [W3_result, W2_main_v0, W2_main_v1]), (h c).2⟩) (run_all m ρ)

end Cert.KernelIdeal.Hand

end
-- ==== Proof.RefValue.lean ====
import proofs.«111773_j1408749273445_1_alg».proof.Proof.Gen.ReferenceIdeal.Run
import proofs.«111773_j1408749273445_1_alg».proof.Proof.Gen.ReferenceIdeal.Read
import proofs.«111773_j1408749273445_1_alg».proof.Proof.Spec
import Idealize.ShloMosaic.PureOps.Reduce
import Idealize.ShloMosaic.PureOps.Ideal.Laws
import Idealize.ShloMosaic.Lib.ValueIdx

/- The reference program read as mathematics. Its 16×4096×4096 matrix is the expanded squared distance
   |p|² + |q|² − 2·⟨p, q⟩ at every pair of points; its two minimum reductions are the nearest squared distances of the
   specification; the remaining operations are the specification's closing arithmetic, word for word. -/

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The row sums of squares of the first cloud are |p|². -/
theorem sq0_eq (x0 : (⟨S16x4096x3, .f32⟩ : BufTy).Contents (Elt Ideal)) (b : Fin 16) (r : Fin 4096) :
    val_main_v1 (F := Ideal) x0 (ix2 b r) = Cert.Chamfer.sqn x0 b r := by
  rw [val_main_v1_apply, val_main_cst_apply]
  show Ideal.ofBits .f32 0x00000000#32 + _ = _
  rw [Ideal.ofBits_zero_f32, zero_add]
  unfold Cert.Chamfer.sqn
  refine Finset.sum_congr rfl fun k _ => ?_
  rw [val_main_v0_apply]
  have e : idx_main_v1 (ix2 b r) k = ix3 b r k :=
    funext fun a => Fin.ext (by match a with | ⟨0, _⟩ => rfl | ⟨1, _⟩ => rfl | ⟨2, _⟩ => rfl)
  rw [e]
  rfl

/-- The row sums of squares of the second cloud are |q|². -/
theorem sq1_eq (x1 : (⟨S16x4096x3, .f32⟩ : BufTy).Contents (Elt Ideal)) (b : Fin 16) (q : Fin 4096) :
    val_main_v3 (F := Ideal) x1 (ix2 b q) = Cert.Chamfer.sqn x1 b q := by
  rw [val_main_v3_apply, val_main_cst_0_apply]
  show Ideal.ofBits .f32 0x00000000#32 + _ = _
  rw [Ideal.ofBits_zero_f32, zero_add]
  unfold Cert.Chamfer.sqn
  refine Finset.sum_congr rfl fun k _ => ?_
  rw [val_main_v2_apply]
  have e : idx_main_v3 (ix2 b q) k = ix3 b q k :=
    funext fun a => Fin.ext (by match a with | ⟨0, _⟩ => rfl | ⟨1, _⟩ => rfl | ⟨2, _⟩ => rfl)
  rw [e]
  rfl

/-- The batched contraction over the three coordinates is ⟨p, q⟩. -/
theorem cross_eq (x0 x1 : (⟨S16x4096x3, .f32⟩ : BufTy).Contents (Elt Ideal)) (b : Fin 16) (r q : Fin 4096) :
    val_main_v4 (F := Ideal) x0 x1 (ix3 b r q) = Cert.Chamfer.cross x0 x1 b r q := by
  rw [val_main_v4_apply]
  unfold Cert.Chamfer.cross
  refine Finset.sum_congr rfl fun k _ => ?_
  have el : lidx_main_v4 (ix3 b r q) k = ix3 b r k :=
    funext fun a => Fin.ext (by match a with | ⟨0, _⟩ => rfl | ⟨1, _⟩ => rfl | ⟨2, _⟩ => rfl)
  have er : ridx_main_v4 (ix3 b r q) k = ix3 b q k :=
    funext fun a => Fin.ext (by match a with | ⟨0, _⟩ => rfl | ⟨1, _⟩ => rfl | ⟨2, _⟩ => rfl)
  rw [el, er]

/-- The matrix the two minima are taken over is the expanded squared distance. -/
theorem dist_eq (x0 x1 : (⟨S16x4096x3, .f32⟩ : BufTy).Contents (Elt Ideal)) (b : Fin 16) (r q : Fin 4096) :
    val_main_v12 (F := Ideal) x0 x1 (ix3 b r q) = Cert.Chamfer.dist x0 x1 b r q := by
  rw [val_main_v12_apply, val_main_v9_apply, val_main_v11_apply, val_main_v7_apply, val_main_v8_apply,
    val_main_v5_apply, val_main_v6_apply, val_main_v10_apply, val_main_cst_1_apply]
  have e1 : idx_main_v5 (idx_main_v7 (ix3 b r q)) = ix2 b r :=
    funext fun a => Fin.ext (by match a with | ⟨0, _⟩ => rfl | ⟨1, _⟩ => rfl)
  have e2 : idx_main_v6 (idx_main_v8 (ix3 b r q)) = ix2 b q :=
    funext fun a => Fin.ext (by match a with | ⟨0, _⟩ => rfl | ⟨1, _⟩ => rfl)
  rw [e1, e2, sq0_eq, sq1_eq, cross_eq]
  rfl

/-- The first minimum reduction (over the first cloud's points) is the specification's nearest squared distance. -/
theorem first_eq (x0 x1 : (⟨S16x4096x3, .f32⟩ : BufTy).Contents (Elt Ideal)) :
    val_main_v13 (F := Ideal) x0 x1 = Cert.Chamfer.nearestInFirst x0 x1 := by
  funext j
  have h : S16x4096x4096.Reduces [1] S16x4096 := by decide
  unfold val_main_v13
  rw [Host.reduce_eq_fold_single FloatOps.minimumf _ _ reducesTo_S16x4096x4096_S16x4096_d1 h h_S_ j]
  unfold Cert.Chamfer.nearestInFirst
  have hf : (val_main_v12 (F := Ideal) x0 x1 ∘ h.lift j) = fun r : Fin 4096 => Cert.Chamfer.dist x0 x1 (j 0) r (j 1) :=
    funext fun (r : Fin 4096) => by
      have e : h.lift j r = ix3 (j 0) r (j 1) :=
        funext fun a => Fin.ext (by match a with | ⟨0, _⟩ => rfl | ⟨1, _⟩ => rfl | ⟨2, _⟩ => rfl)
      exact (congrArg (val_main_v12 (F := Ideal) x0 x1) e).trans (dist_eq x0 x1 (j 0) r (j 1))
  exact congrArg (fun f => Finset.fold min (Ideal.ofBits .f32 0x7F800000#32) f (Finset.univ : Finset (Fin 4096))) hf

/-- The second minimum reduction (over the second cloud's points) is the specification's nearest squared distance. -/
theorem second_eq (x0 x1 : (⟨S16x4096x3, .f32⟩ : BufTy).Contents (Elt Ideal)) :
    val_main_v17 (F := Ideal) x0 x1 = Cert.Chamfer.nearestInSecond x0 x1 := by
  funext j
  have h : S16x4096x4096.Reduces [2] S16x4096 := by decide
  unfold val_main_v17
  rw [Host.reduce_eq_fold_single FloatOps.minimumf _ _ reducesTo_S16x4096x4096_S16x4096_d2 h h_S_ j]
  unfold Cert.Chamfer.nearestInSecond
  have hf : (val_main_v12 (F := Ideal) x0 x1 ∘ h.lift j) = fun q : Fin 4096 => Cert.Chamfer.dist x0 x1 (j 0) (j 1) q :=
    funext fun (q : Fin 4096) => by
      have e : h.lift j q = ix3 (j 0) (j 1) q :=
        funext fun a => Fin.ext (by match a with | ⟨0, _⟩ => rfl | ⟨1, _⟩ => rfl | ⟨2, _⟩ => rfl)
      exact (congrArg (val_main_v12 (F := Ideal) x0 x1) e).trans (dist_eq x0 x1 (j 0) (j 1) q)
  exact congrArg (fun f => Finset.fold min (Ideal.ofBits .f32 0x7F800000#32) f (Finset.univ : Finset (Fin 4096))) hf

/-- The whole reference value: the closing arithmetic of the two families of nearest squared distances. -/
theorem result_eq (x0 x1 : (⟨S16x4096x3, .f32⟩ : BufTy).Contents (Elt Ideal)) :
    val_main_v28 (F := Ideal) x0 x1
      = Cert.Chamfer.closing reducesTo_S16x4096_S16_d1 h_S_ bcast_S_S16 reducesTo_S16_S_d0
          (Cert.Chamfer.nearestInFirst x0 x1) (Cert.Chamfer.nearestInSecond x0 x1) := by
  unfold val_main_v28 val_main_v27 val_main_v26 val_main_v25 val_main_v22 val_main_v24 val_main_v16 val_main_v20
    val_main_v14 val_main_v18
  rw [first_eq, second_eq]
  rfl

/-- Every weakly fair execution of the reference ends with its result at the closing arithmetic of the nearest squared
    distances of its two arguments, the arguments unchanged. -/
theorem run_closing (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
          = Cert.Chamfer.closing reducesTo_S16x4096_S16_d1 h_S_ bcast_S_S16 reducesTo_S16_S_d0
              (Cert.Chamfer.nearestInFirst (m ((c.tc : Thread nD τ).loc main_arg0)) (m ((c.tc : Thread nD τ).loc main_arg1)))
              (Cert.Chamfer.nearestInSecond (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v28_eq _ _).trans (result_eq _ _)), (h c).2⟩)
    (Cert.ReferenceIdeal.Value.run (F := Ideal) m ρ)

end Cert.ReferenceIdeal.RefValue

end
-- ==== Proof.lean ====
/- The certificate of a Chamfer-style point-cloud loss: for two clouds of 4096 points per batch the kernel program computes,
   in two pallas_calls over 16 × 16 grids of 256 × 256 tiles, each point's least expanded squared distance
   |p|² + |q|² − 2⟨p, q⟩ to the other cloud as a running minimum along the inner grid axis, and then averages on the host;
   the reference takes the same minima over the whole 4096 × 4096 matrix. The three frames, and the equality of the two
   results over the extended reals (a minimum over 4096 candidates is the minimum of the sixteen tile minima). -/
import proofs.«111773_j1408749273445_1_alg».proof.Defs
import proofs.«111773_j1408749273445_1_alg».proof.Proof.Gen.Kernel
import proofs.«111773_j1408749273445_1_alg».proof.Proof.Gen.KernelIdeal
import proofs.«111773_j1408749273445_1_alg».proof.Proof.Gen.ReferenceIdeal
import proofs.«111773_j1408749273445_1_alg».proof.Proof.Gen.Pre_finite_inputs
import proofs.«111773_j1408749273445_1_alg».proof.Proof.K.Run
import proofs.«111773_j1408749273445_1_alg».proof.Proof.KI.Result
import proofs.«111773_j1408749273445_1_alg».proof.Proof.RefValue
import Idealize.ShloMosaic.Adequacy
import Idealize.ShloMosaic.Init

noncomputable section

namespace Cert.Proof

open Idealize.ShloMosaic Idealize.SL.Sem

/-- The word-level kernel program runs to the end and leaves the two clouds as launched. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the same number: each takes, for every point of either cloud, the
    least expanded squared distance to the other cloud — the kernel 256 candidates at a time along a grid axis, the
    reference all 4096 at once, the same minimum —, and applies the same closing arithmetic to the two families. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.RefValue.run_closing m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
